-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg1 : IVec S3200000 32) (main_arg6 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S3200000 32 := broadcastInDim S3200000 ![] bcast_S_S3200000 main_c_8
  let main_v25 : IVec S3200000 1 := cmpi .sge main_arg1 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v23 main_v26
  let main_c_10 : IVec S_ 32 := constantI S_ 32 100000#32
  let main_v28 : IVec S3200000 32 := broadcastInDim S3200000 ![] bcast_S_S3200000 main_c_10
  let main_v29 : IVec S3200000 1 := cmpi .slt main_arg1 main_v28
  let main_c_11 : IVec S_ 1 := constantI S_ 1 1#1
  let main_v30 : IVec S_ 1 := (fun x v => Host.reduce IntOp.andi x v reducesTo_S3200000_S_d0 h_S_) main_v29 main_c_11
  let main_v31 : IVec S_ 1 := andi main_v27 main_v30
  main_v31

def fn {F : FTy → Type} [FloatOps F] (main_arg0 : FVec F S100000x128 .f32) (main_arg1 : IVec S3200000 32) (main_arg2 : IVec S3200000 32) (main_arg3 : FVec F S128x8 .f32) (main_arg4 : FVec F S8 .f32) (main_arg5 : FVec F S8x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x8 .f32 := Host.absf main_arg3
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x1 .f32 := Host.absf main_arg5
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg1 main_arg6 main_v13 main_v16
-- ==== Kernel.lean ====
abbrev S100000x128 : Shape := ⟨2, ![100000, 128]⟩
abbrev S3200000 : Shape := ⟨1, ![3200000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x8 : Shape := ⟨2, ![100000, 8]⟩
abbrev S4000x128 : Shape := ⟨2, ![4000, 128]⟩
abbrev S4000x1 : Shape := ⟨2, ![4000, 1]⟩
abbrev S4000x8 : Shape := ⟨2, ![4000, 8]⟩
abbrev S1x1 : Shape := ⟨2, ![1, 1]⟩
abbrev S3200000x8 : Shape := ⟨2, ![3200000, 8]⟩
abbrev S1x8 : Shape := ⟨2, ![1, 8]⟩

abbrev nBuf : Space → Nat
  | .hbm => 82
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S_, .i32⟩
  | .hbm, ⟨8, _⟩ => ⟨S3200000, .i32⟩
  | .hbm, ⟨9, _⟩ => ⟨S_, .i32⟩
  | .hbm, ⟨10, _⟩ => ⟨S100000, .i32⟩
  | .hbm, ⟨11, _⟩ => ⟨S3200000x1, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S3200000x1, .i32⟩
  | .hbm, ⟨16, _⟩ => ⟨S100000, .i32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x8, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S1, .i32⟩
  | .hbm, ⟨30, _⟩ => ⟨S_, .i32⟩
  | .hbm, ⟨31, _⟩ => ⟨S3200000x1, .i32⟩
  | .hbm, ⟨32, _⟩ => ⟨S3200000x1, .i1⟩
  | .hbm, ⟨33, _⟩ => ⟨S1x1, .i32⟩
  | .hbm, ⟨34, _⟩ => ⟨S3200000x1, .i32⟩
  | .hbm, ⟨35, _⟩ => ⟨S3200000x1, .i1⟩
  | .hbm, ⟨36, _⟩ => ⟨S3200000x1, .i1⟩
  | .hbm, ⟨37, _⟩ => ⟨S_, .i1⟩
  | .hbm, ⟨38, _⟩ => ⟨S3200000, .i1⟩
  | .hbm, ⟨39, _⟩ => ⟨S3200000x8, .f32⟩
  | .hbm, ⟨40, _⟩ => ⟨S3200000x8, .i1⟩
  | .hbm, ⟨41, _⟩ => ⟨S_, .f32⟩
  | .hbm, ⟨42, _⟩ => ⟨S3200000x8, .f32⟩
  | .hbm, ⟨43, _⟩ => ⟨S3200000x8, .f32⟩
  | .hbm, ⟨44, _⟩ => ⟨S_, .f32⟩
  | .hbm, ⟨45, _⟩ => ⟨S100000x8, .f32⟩
  | .hbm, ⟨46, _⟩ => ⟨S3200000x1, .i32⟩
  | .hbm, ⟨47, _⟩ => ⟨S100000x8, .f32⟩
  | .hbm, ⟨48, _⟩ => ⟨S100000x1, .f32⟩
  | .hbm, ⟨49, _⟩ => ⟨S100000x1, .f32⟩
  | .hbm, ⟨50, _⟩ => ⟨S1x8, .f32⟩
  | .hbm, ⟨51, _⟩ => ⟨S100000x1, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S1, .i32⟩
  | .hbm, ⟨61, _⟩ => ⟨S_, .i32⟩
  | .hbm, ⟨62, _⟩ => ⟨S3200000x1, .i32⟩
  | .hbm, ⟨63, _⟩ => ⟨S3200000x1, .i1⟩
  | .hbm, ⟨64, _⟩ => ⟨S1x1, .i32⟩
  | .hbm, ⟨65, _⟩ => ⟨S3200000x1, .i32⟩
  | .hbm, ⟨66, _⟩ => ⟨S3200000x1, .i1⟩
  | .hbm, ⟨67, _⟩ => ⟨S3200000x1, .i1⟩
  | .hbm, ⟨68, _⟩ => ⟨S_, .i1⟩
  | .hbm, ⟨69, _⟩ => ⟨S3200000, .i1⟩
  | .hbm, ⟨70, _⟩ => ⟨S3200000x1, .f32⟩
  | .hbm, ⟨71, _⟩ => ⟨S3200000x1, .i1⟩
  | .hbm, ⟨72, _⟩ => ⟨S_, .f32⟩
  | .hbm, ⟨73, _⟩ => ⟨S3200000x1, .f32⟩
  | .hbm, ⟨74, _⟩ => ⟨S3200000x1, .f32⟩
  | .hbm, ⟨75, _⟩ => ⟨S_, .f32⟩
  | .hbm, ⟨76, _⟩ => ⟨S100000x1, .f32⟩
  | .hbm, ⟨77, _⟩ => ⟨S3200000x1, .i32⟩
  | .hbm, ⟨78, _⟩ => ⟨S100000x1, .f32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x8, .f32⟩
  | .local _ .vmem, ⟨5, _⟩ => ⟨S4000x8, .f32⟩
  | .local _ .vmem, ⟨6, _⟩ => ⟨S4000x8, .f32⟩
  | .local _ .vmem, ⟨7, _⟩ => ⟨S4000x8, .f32⟩
  | .local _ .vmem, ⟨8, _⟩ => ⟨S4000x8, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S1x8, .f32⟩
  | .local _ .vmem, ⟨14, _⟩ => ⟨S8x1, .f32⟩
  | .local _ .vmem, ⟨15, _⟩ => ⟨S4000x1, .f32⟩
  | .local _ .vmem, ⟨16, _⟩ => ⟨S4000x1, .f32⟩
  | .local _ .vmem, ⟨17, _⟩ => ⟨S4000x1, .f32⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S1x1, .f32⟩
  | .local _ .vmem, ⟨22, _⟩ => ⟨S4000x1, .f32⟩
  | .local _ .vmem, ⟨23, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v11 : Ref sig .tc := ⟨.hbm, 43, rfl⟩
abbrev main_cst : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v19 : Ref sig .tc := ⟨.hbm, 74, rfl⟩
abbrev main_cst_2 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S4000x8_S4000x8_0_0 : ∀ a, (![0, 0] : Fin 2 → Nat) a + S4000x8.size a ≤ S4000x8.size a
  h_S4000x8 : 0 < S4000x8.numel
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x8_0 : S3200000.BroadcastsInDim S3200000x8 (![0] : Fin 1 → Fin S3200000x8.rank)
  bcast_S_S3200000x8 : S_.BroadcastsInDim S3200000x8 (![] : Fin 0 → Fin S3200000x8.rank)
  bcast_S_S100000x8 : S_.BroadcastsInDim S100000x8 (![] : Fin 0 → Fin S100000x8.rank)
  shapeCasts_S8_S1x8 : S8.ShapeCasts S1x8
  shapeCasts_S4000x8_S4000x8 : S4000x8.ShapeCasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S4000x1_S4000x8 : S4000x1.Broadcasts S4000x8
  broadcasts_S1x8_S4000x8 : S1x8.Broadcasts S4000x8
  inb_S8x1_S8x1_0_0 : ∀ a, (![0, 0] : Fin 2 → Nat) a + S8x1.size a ≤ S8x1.size a
  h_S8x1 : 0 < S8x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S3200000x1_S3200000_n_0_0_1_wf : ScatterDims.WF S100000 S3200000x1 S3200000 [] [0] [0] 1
  dot_S4000x128_S128x8_S4000x8_1_0_0_1_n_n_wf : DotDims.WF S4000x128 S128x8 S4000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S4000x8_S8x1_S4000x1_1_0_0_1_n_n_wf : DotDims.WF S4000x8 S8x1 S4000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x8.size a ≤ S100000x8.size a
  hwx0_3 : ∀ i : grid0.Coords, EltTy.bits .f32 = 32 ∨ (Rect.block (s := S100000x8) S4000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x8.size a ≤ S100000x8.size a
  hwx1_0 : ∀ i : grid1.Coords, EltTy.bits .f32 = 32 ∨ (Rect.block (s := S100000x8) S4000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S100000x1.size a
  hwx2_0 : ∀ i : grid2.Coords, EltTy.bits .f32 = 32 ∨ (Rect.block (s := S100000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S4000x8_S8x1_S4000x1_1_0_0_1_n_n : DotDims S4000x8 S8x1 S4000x1 where
  lhsContracting := [1]
  rhsContracting := [0]
  lhsNonContracting := [0]
  rhsNonContracting := [1]
  lhsBatch := []
  rhsBatch := []
  wf := dot_S4000x8_S8x1_S4000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S4000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S4000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S4000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x8 : Shape := ⟨2, ![100000, 8]⟩
abbrev S3200000x8 : Shape := ⟨2, ![3200000, 8]⟩
abbrev S1x8 : Shape := ⟨2, ![1, 8]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x8, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x8, .f32⟩
  | .hbm, ⟨44, _⟩ => ⟨S_, .f32⟩
  | .hbm, ⟨45, _⟩ => ⟨S100000x8, .f32⟩
  | .hbm, ⟨46, _⟩ => ⟨S3200000x1, .i32⟩
  | .hbm, ⟨47, _⟩ => ⟨S100000x8, .f32⟩
  | .hbm, ⟨48, _⟩ => ⟨S100000x1, .f32⟩
  | .hbm, ⟨49, _⟩ => ⟨S100000x8, .f32⟩
  | .hbm, ⟨50, _⟩ => ⟨S100000x8, .f32⟩
  | .hbm, ⟨51, _⟩ => ⟨S1x8, .f32⟩
  | .hbm, ⟨52, _⟩ => ⟨S100000x8, .f32⟩
  | .hbm, ⟨53, _⟩ => ⟨S100000x8, .f32⟩
  | .hbm, ⟨54, _⟩ => ⟨S_, .f32⟩
  | .hbm, ⟨55, _⟩ => ⟨S100000x8, .f32⟩
  | .hbm, ⟨56, _⟩ => ⟨S100000x8, .f32⟩
  | .hbm, ⟨57, _⟩ => ⟨S_, .f32⟩
  | .hbm, ⟨58, _⟩ => ⟨S3200000, .f32⟩
  | .hbm, ⟨59, _⟩ => ⟨S_, .f32⟩
  | .hbm, ⟨60, _⟩ => ⟨S100000, .f32⟩
  | .hbm, ⟨61, _⟩ => ⟨S3200000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S3200000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x8, .f32⟩
  | .hbm, ⟨83, _⟩ => ⟨S100000x8, .f32⟩
  | .hbm, ⟨84, _⟩ => ⟨S100000x1, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x1, .f32⟩
  | .hbm, ⟨94, _⟩ => ⟨S_, .f32⟩
  | .hbm, ⟨95, _⟩ => ⟨S100000x1, .f32⟩
  | .hbm, ⟨96, _⟩ => ⟨S3200000x1, .i32⟩
  | .hbm, ⟨97, _⟩ => ⟨S100000x1, .f32⟩
  | .hbm, ⟨98, _⟩ => ⟨S100000x1, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_c_16 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3200000x1_S3200000_n_0_0_1_wf : ScatterDims.WF S100000 S3200000x1 S3200000 [] [0] [0] 1
  dot_S100000x128_S128x8_S100000x8_1_0_0_1_n_n_wf : DotDims.WF S100000x128 S128x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x1_S100000x1_1_0_0_1_n_n_wf : DotDims.WF S100000x8 S8x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Spec.lean ====
/-
  The two GraphConv layers as three row-wise maps on the extended reals.

  A node n has an out-degree and an in-degree (how many edges leave it, how many arrive); its normalisation is
  1/sqrt(max(degree, 1)).  Layer 1 scales row n of x by the out-normalisation and multiplies by W1 (128 -> 8);
  between the layers the rows are gathered along the edges' sources and summed at their destinations; layer 2
  scales the aggregate by the in-normalisation, adds the bias, clamps at zero, scales by the out-normalisation and
  multiplies by W2 (8 -> 1); the last map scales the second aggregate by the in-normalisation and adds the bias.
  Each map reads row n of its inputs only, so it is stated index by index, the degrees as columns [N, 1].
-/
import Idealize.ShloMosaic.PureOps.Ideal
import Idealize.ShloMosaic.Lib.ValueIdx

noncomputable section

namespace Cert.Spec

open Idealize.ShloMosaic Idealize.ShloMosaic.ValueIdx

/-- An [a, b] array of extended reals. -/
abbrev Arr (a b : Nat) : Type := (⟨2, ![a, b]⟩ : Shape).Idx → EReal

/-- The normalisation of a degree: 1/sqrt(max(d, 1)). -/
def nrm (d : EReal) : EReal := Ideal.rsqrt (max d 1)

/-- Layer 1 before aggregation: row n of x scaled by the out-normalisation, times W. -/
def layer1 (x : Arr 100000 128) (dout : Arr 100000 1) (W : Arr 128 8) : Arr 100000 8 :=
  fun i => ∑ j : Fin 128, (x (ix2 (i 0) j) * nrm (dout (ix2 (i 0) 0))) * W (ix2 j (i 1))

/-- Layer 1 after aggregation fused with layer 2 before aggregation: relu(agg * in-norm + b), scaled by the
    out-normalisation, times W. -/
def layer2 (agg : Arr 100000 8) (din dout : Arr 100000 1) (b : Arr 1 8) (W : Arr 8 1) : Arr 100000 1 :=
  fun i => ∑ k : Fin 8,
    (max (agg (ix2 (i 0) k) * nrm (din (ix2 (i 0) 0)) + b (ix2 0 k)) 0 * nrm (dout (ix2 (i 0) 0))) * W (ix2 k (i 1))

/-- Layer 2 after aggregation: agg * in-norm + b. -/
def layer3 (agg : Arr 100000 1) (din : Arr 100000 1) (b : Arr 1 1) : Arr 100000 1 :=
  fun i => agg i * nrm (din i) + b (ix2 0 0)

end Cert.Spec

end
-- ==== Proof.RegionA.lean ====
import proofs.«404905_j37572373905750_3_alg».proof.Proof.Gen.KernelIdeal.Frame
import proofs.«404905_j37572373905750_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer1

/-! ## The body's arithmetic at an index -/

/-- The float word of one denotes 1. -/
theorem one_word : (Scalar.ofBits (F := Ideal) .f32 0x3F800000#32 : EReal) = 1 := by
  show Ideal.ofBits .f32 0x3F800000#32 = 1
  simp [Ideal.ofBits, Ideal.ieee]
  rw [← EReal.coe_mul]
  norm_num

/-- The left operand's index of the product at an output index and a contraction index: the output's row … -/
theorem lhs_row (i : S4000x8.Idx) (k : dot_S4000x128_S128x8_S4000x8_1_0_0_1_n_n.contr.Idx) :
    (dot_S4000x128_S128x8_S4000x8_1_0_0_1_n_n.lhsIdx i k 0).val = (i 0).val := by
  unfold DotDims.lhsIdx
  rw [dif_neg (show ¬(0 : Fin S4000x128.rank) ∈ dot_S4000x128_S128x8_S4000x8_1_0_0_1_n_n.lhsBatch by decide), dif_pos (show (0 : Fin S4000x128.rank) ∈ dot_S4000x128_S128x8_S4000x8_1_0_0_1_n_n.lhsNonContracting by decide)]
  rfl
/-- … and the contraction coordinate as its column; -/
theorem lhs_col (i : S4000x8.Idx) (k : dot_S4000x128_S128x8_S4000x8_1_0_0_1_n_n.contr.Idx) :
    (dot_S4000x128_S128x8_S4000x8_1_0_0_1_n_n.lhsIdx i k 1).val = (k ⟨0, by decide⟩).val :=
  dot_S4000x128_S128x8_S4000x8_1_0_0_1_n_n.lhsIdx_val_of_single rfl i k
/-- the right operand's: the contraction coordinate as its row … -/
theorem rhs_row (i : S4000x8.Idx) (k : dot_S4000x128_S128x8_S4000x8_1_0_0_1_n_n.contr.Idx) :
    (dot_S4000x128_S128x8_S4000x8_1_0_0_1_n_n.rhsIdx i k 0).val = (k ⟨0, by decide⟩).val :=
  dot_S4000x128_S128x8_S4000x8_1_0_0_1_n_n.rhsIdx_val_of_single rfl i k
/-- … and the output's column. -/
theorem rhs_col (i : S4000x8.Idx) (k : dot_S4000x128_S128x8_S4000x8_1_0_0_1_n_n.contr.Idx) :
    (dot_S4000x128_S128x8_S4000x8_1_0_0_1_n_n.rhsIdx i k 1).val = (i 1).val := by
  unfold DotDims.rhsIdx
  rw [dif_neg (show ¬(1 : Fin S128x8.rank) ∈ dot_S4000x128_S128x8_S4000x8_1_0_0_1_n_n.rhsBatch by decide), dif_pos (show (1 : Fin S128x8.rank) ∈ dot_S4000x128_S128x8_S4000x8_1_0_0_1_n_n.rhsNonContracting by decide)]
  rfl

/-- The product onto the zero accumulator, read at row p and column q: the sum over the 128 contraction
    coordinates of the left operand's row p times the right operand's column q. -/
theorem matmul_read (A : FVec Ideal S4000x128 .bf16) (B : FVec Ideal S128x8 .bf16) (p : Fin 4000) (q : Fin 8) :
    matmul dot_S4000x128_S128x8_S4000x8_1_0_0_1_n_n none A B (constant S4000x8 .f32 0x00000000#32) (ix2 p q)
      = ∑ k : Fin 128, A (ix2 p k) * B (ix2 k q) := by
  simp only [matmul]
  rw [Ideal.matmul_constant_zero_apply, ← Equiv.sum_comp (ValueIdx.contrEquiv1 dot_S4000x128_S128x8_S4000x8_1_0_0_1_n_n 128 rfl rfl).symm]
  refine Finset.sum_congr rfl fun k _ => ?_
  have hk := ValueIdx.contrEquiv1_symm_val dot_S4000x128_S128x8_S4000x8_1_0_0_1_n_n 128 rfl rfl k
  have el : dot_S4000x128_S128x8_S4000x8_1_0_0_1_n_n.lhsIdx (ix2 p q) ((ValueIdx.contrEquiv1 dot_S4000x128_S128x8_S4000x8_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x8_S4000x8_1_0_0_1_n_n.rhsIdx (ix2 p q) ((ValueIdx.contrEquiv1 dot_S4000x128_S128x8_S4000x8_1_0_0_1_n_n 128 rfl rfl).symm k) = ix2 k q := funext fun a => Fin.ext (by
    match a with
    | ⟨0, _⟩ => exact (rhs_row _ _).trans hk
    | ⟨1, _⟩ => exact rhs_col _ _)
  rw [el, er]

/-- A column [4000, 1] broadcast along the lanes to [4000, 128] reads, at (p, j), the column at row p. -/
theorem bcast_col_read (v : FVec Ideal S4000x1 .f32) (p : Fin 4000) (j : Fin 128) :
    broadcastTo S4000x128 v broadcasts_S4000x1_S4000x128 (ix2 p j) = v (ix2 p 0) := by
  refine broadcastTo_apply v broadcasts_S4000x1_S4000x128 (ix2 p j) (ix2 p (0 : Fin 1)) fun ax => ?_
  match ax with
  | ⟨0, _⟩ => rfl
  | ⟨1, _⟩ => rfl

/-- The body's arithmetic at row p and column q: row p of x scaled by the normalisation of its degree, times W. -/
theorem pay_read (x : Vec Ideal S4000x128 .f32) (d : Vec Ideal S4000x1 .f32) (W : Vec Ideal S128x8 .f32)
    (p : Fin 4000) (q : Fin 8) :
    k0_pay1 x d W (ix2 p q) = ∑ j : Fin 128, (x (ix2 p j) * Cert.Spec.nrm (d (ix2 p 0))) * W (ix2 j q) := by
  unfold k0_pay1
  rw [matmul_read]
  refine Finset.sum_congr rfl fun j _ => ?_
  rw [truncf_apply, truncf_apply, mulf_apply, bcast_col_read]
  have hn : rsqrt (maximumf (shapeCast S4000x1 d shapeCasts_S4000x1_S4000x1) (broadcast S4000x1 (Scalar.ofBits (F := Ideal) .f32 0x3F800000#32))) (ix2 p 0)
      = Cert.Spec.nrm (d (ix2 p 0)) := by
    rw [shapeCast_self]
    show Ideal.rsqrt (max (d (ix2 p 0)) (Scalar.ofBits (F := Ideal) .f32 0x3F800000#32)) = _
    rw [one_word]
    rfl
  rw [hn]

/-! ## What a grid point writes back -/

theorem zero_offsets : (![0, 0] : Fin 2 → Nat) = fun _ => 0 := funext fun a => by fin_cases a <;> rfl

/-- The printed index maps, decided over the 25 grid points: the rows of x, of the degree column and of the
    output move together, one block of 4000 rows per point; the lane blocks and the weights do not move. -/
theorem index_facts : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0 :=
  (by decide +kernel : ∀ t : Fin grid0.N, _)

/-- What point t writes back is block t of layer 1 of the arrays as the region finds them. -/
theorem written_eq (c : Dev nD) (t : Fin cfg0.N) :
    (dat0 (F := Ideal) V c).flushed 3 t
      = ((cfg0.win 3).blk t).view.read (Elt Ideal) (Cert.Spec.layer1 (V c main_arg0) (V c main_v9) (V c main_arg3)) := by
  show (cfg0.win 3).cut (grid0.coords t) ((dat0 (F := Ideal) V c).after 3 t) = _
  rw [after0_3]
  unfold out0_3
  rw [View.canon_unit_zero zero_offsets]
  simp only [View.ld_unit_zero (S := S4000x128) zero_offsets, View.ld_unit_zero (S := S4000x1) zero_offsets, View.ld_unit_zero (S := S128x8) zero_offsets]
  obtain ⟨e30, e31, e00, e01, e10, e11, e20, e21⟩ := index_facts t
  funext j
  obtain ⟨p, q, rfl⟩ : ∃ (p : Fin 4000) (q : Fin 8), j = ix2 p q := ⟨j 0, j 1, eq_ix2 j⟩
  show k0_pay1 (iblk0 V c 0 t) (iblk0 V c 1 t) (iblk0 V c 2 t) (ix2 p q) = Cert.Spec.layer1 (V c main_arg0) (V c main_v9) (V c main_arg3) (((cfg0.win 3).blk t).view.emb (ix2 p q))
  rw [pay_read]
  generalize hi : ((cfg0.win 3).blk t).view.emb (ix2 p q) = i
  have hi0 : (i 0).val = win0_3.index t (0 : Fin 2) * 4000 + 1 * p.val := by rw [← hi]; rfl
  have hi1 : (i 1).val = win0_3.index t (1 : Fin 2) * 8 + 1 * q.val := by rw [← hi]; rfl
  unfold Cert.Spec.layer1
  refine Finset.sum_congr rfl fun k _ => ?_
  have hx : iblk0 V c 0 t (ix2 p k) = V c main_arg0 (ix2 (i 0) k) := by
    show V c main_arg0 (((cfg0.win 0).blk t).view.emb (ix2 p k)) = V c main_arg0 (ix2 (i 0) k)
    refine congrArg (V c main_arg0) (funext fun a => Fin.ext ?_)
    match a with
    | ⟨0, _⟩ => show win0_0.index t (0 : Fin 2) * 4000 + 1 * p.val = (i 0).val; omega
    | ⟨1, _⟩ => show win0_0.index t (1 : Fin 2) * 128 + 1 * k.val = k.val; omega
  have hd : iblk0 V c 1 t (ix2 p 0) = V c main_v9 (ix2 (i 0) 0) := by
    show V c main_v9 (((cfg0.win 1).blk t).view.emb (ix2 p 0)) = V c main_v9 (ix2 (i 0) 0)
    refine congrArg (V c main_v9) (funext fun a => Fin.ext ?_)
    match a with
    | ⟨0, _⟩ => show win0_1.index t (0 : Fin 2) * 4000 + 1 * p.val = (i 0).val; omega
    | ⟨1, _⟩ => show win0_1.index t (1 : Fin 2) * 1 + 1 * 0 = 0; omega
  have hw : iblk0 V c 2 t (ix2 k q) = V c main_arg3 (ix2 k (i 1)) := by
    show V c main_arg3 (((cfg0.win 2).blk t).view.emb (ix2 k q)) = V c main_arg3 (ix2 k (i 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 8 + 1 * q.val = (i 1).val; omega
  exact congrArg₂ (fun a b : EReal => a * b) (congrArg₂ (fun a b : EReal => a * b) hx (congrArg Cert.Spec.nrm hd)) hw

/-! ## The blocks cover the array -/

/-- An index of the output array is in point t's block iff each coordinate is in the block's range on its axis. -/
theorem mem_block (t : Fin cfg0.N) (i : S100000x8.Idx) :
    i ∈ ((cfg0.win 3).blk t).view.set ↔ ∀ a : Fin 2, win0_3.index t a * S4000x8.size a ≤ (i a).val ∧ (i a).val < win0_3.index t a * S4000x8.size a + S4000x8.size a := by
  show i ∈ ((View.whole main_v10).slice (win0_3.rect t)).set ↔ _
  rw [View.set_slice_whole, Rect.mem_set_unit]
  exact Iff.rfl

/-- Row r lies in the block of the point that handles it, point r / 4000, and every point writes back. -/
theorem rows_covered (i : S100000x8.Idx) :
    ∃ t : Fin cfg0.N, (cfg0.win 3).flush t = true ∧ i ∈ ((cfg0.win 3).blk t).view.set := by
  have hi0 : (i 0).val < 100000 := idx2_lt0 i
  have hi1 : (i 1).val < 8 := idx2_lt1 i
  have hN : cfg0.N = 25 := N_0
  obtain ⟨t, ht⟩ : ∃ t : Fin cfg0.N, t.val = (i 0).val / 4000 := ⟨⟨(i 0).val / 4000, by rw [hN]; omega⟩, rfl⟩
  obtain ⟨e30, e31, -⟩ := index_facts t
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 8 ≤ (i 1).val ∧ (i 1).val < win0_3.index t (1 : Fin 2) * 8 + 8; omega

end Layer1

/-! ## The array after the 25 points -/

theorem region0_value (c : Dev nD) :
    (dat0 (F := Ideal) V c).arrAt 3 cfg0.N = Cert.Spec.layer1 (V c main_arg0) (V c main_v9) (V c main_arg3) :=
  (dat0 (F := Ideal) V c).arrAt_eq_of_cover 3 (Cert.Spec.layer1 (V c main_arg0) (V c main_v9) (V c main_arg3))
    (fun t _ => Layer1.written_eq V c t) Layer1.rows_covered

end Cert.KernelIdeal.Layers

end
-- ==== Proof.RegionB.lean ====
import proofs.«404905_j37572373905750_3_alg».proof.Proof.Gen.KernelIdeal.Frame
import proofs.«404905_j37572373905750_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! # Pipeline 1: the output array is layer 2 of the arrays the region finds

Each of the 25 grid points handles 4000 rows. At a point the body scales the aggregate's rows by the in-degree
normalisation, adds the bias, clamps at zero, scales by the out-degree normalisation and multiplies by the 8x1 weights:
row by row this is `Cert.Spec.layer2`. The blocks of the aggregate, of the two degree columns and of the output sit at the
same rows; the bias and the weights are read whole. So what a point writes back is its block of `layer2` of the whole
arrays, the 25 blocks cover the output, and the output array ends holding `layer2`. -/

/-! ## The contraction of the 4000x8 by 8x1 product, axis by axis -/

theorem lhs_l2_0 (i : S4000x1.Idx) (q : dot_S4000x8_S8x1_S4000x1_1_0_0_1_n_n.contr.Idx) :
    (dot_S4000x8_S8x1_S4000x1_1_0_0_1_n_n.lhsIdx i q 0).val = (i 0).val := by
  unfold DotDims.lhsIdx
  rw [dif_neg (show ¬(0 : Fin S4000x8.rank) ∈ dot_S4000x8_S8x1_S4000x1_1_0_0_1_n_n.lhsBatch by decide), dif_pos (show (0 : Fin S4000x8.rank) ∈ dot_S4000x8_S8x1_S4000x1_1_0_0_1_n_n.lhsNonContracting by decide)]
  rfl
theorem lhs_l2_1 (i : S4000x1.Idx) (q : dot_S4000x8_S8x1_S4000x1_1_0_0_1_n_n.contr.Idx) :
    (dot_S4000x8_S8x1_S4000x1_1_0_0_1_n_n.lhsIdx i q 1).val = (q ⟨0, by decide⟩).val :=
  dot_S4000x8_S8x1_S4000x1_1_0_0_1_n_n.lhsIdx_val_of_single rfl i q
theorem rhs_l2_0 (i : S4000x1.Idx) (q : dot_S4000x8_S8x1_S4000x1_1_0_0_1_n_n.contr.Idx) :
    (dot_S4000x8_S8x1_S4000x1_1_0_0_1_n_n.rhsIdx i q 0).val = (q ⟨0, by decide⟩).val :=
  dot_S4000x8_S8x1_S4000x1_1_0_0_1_n_n.rhsIdx_val_of_single rfl i q
theorem rhs_l2_1 (i : S4000x1.Idx) (q : dot_S4000x8_S8x1_S4000x1_1_0_0_1_n_n.contr.Idx) :
    (dot_S4000x8_S8x1_S4000x1_1_0_0_1_n_n.rhsIdx i q 1).val = (i 1).val := by
  unfold DotDims.rhsIdx
  rw [dif_neg (show ¬(1 : Fin S8x1.rank) ∈ dot_S4000x8_S8x1_S4000x1_1_0_0_1_n_n.rhsBatch by decide), dif_pos (show (1 : Fin S8x1.rank) ∈ dot_S4000x8_S8x1_S4000x1_1_0_0_1_n_n.rhsNonContracting by decide)]
  rfl

/-- The product onto a zero accumulator, at row p and column q, is the sum over the eight shared coordinates. -/
theorem matmul_l2_apply (A : FVec Ideal S4000x8 .bf16) (B : FVec Ideal S8x1 .bf16) (p : Fin 4000) (q : Fin 1) :
    matmul dot_S4000x8_S8x1_S4000x1_1_0_0_1_n_n none A B (constant (F := Ideal) S4000x1 .f32 0x00000000#32) (ix2 p q)
      = ∑ k : Fin 8, A (ix2 p k) * B (ix2 k q) := by
  show FloatOps.matmul dot_S4000x8_S8x1_S4000x1_1_0_0_1_n_n none A B (constant (F := Ideal) S4000x1 .f32 0x00000000#32) (ix2 p q) = _
  rw [Ideal.matmul_constant_zero_apply, ← Equiv.sum_comp (ValueIdx.contrEquiv1 dot_S4000x8_S8x1_S4000x1_1_0_0_1_n_n 8 rfl rfl).symm]
  refine Finset.sum_congr rfl fun k _ => ?_
  have hk := ValueIdx.contrEquiv1_symm_val dot_S4000x8_S8x1_S4000x1_1_0_0_1_n_n 8 rfl rfl k
  have el : dot_S4000x8_S8x1_S4000x1_1_0_0_1_n_n.lhsIdx (ix2 p q) ((ValueIdx.contrEquiv1 dot_S4000x8_S8x1_S4000x1_1_0_0_1_n_n 8 rfl rfl).symm k) = ix2 p k := funext fun a => Fin.ext (by
    match a with
    | ⟨0, _⟩ => exact lhs_l2_0 _ _
    | ⟨1, _⟩ => exact (lhs_l2_1 _ _).trans hk)
  have er : dot_S4000x8_S8x1_S4000x1_1_0_0_1_n_n.rhsIdx (ix2 p q) ((ValueIdx.contrEquiv1 dot_S4000x8_S8x1_S4000x1_1_0_0_1_n_n 8 rfl rfl).symm k) = ix2 k q := funext fun a => Fin.ext (by
    match a with
    | ⟨0, _⟩ => exact (rhs_l2_0 _ _).trans hk
    | ⟨1, _⟩ => exact rhs_l2_1 _ _)
  rw [el, er]

/-! ## A column broadcast along its rows -/

/-- An [a, 1] column broadcast to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two constants and the reciprocal root at an index -/

/-- The pattern 0x3F800000 is the extended real one. -/
theorem one_f32 : (FloatOps.ofBits (F := Ideal) .f32 0x3F800000#32 : EReal) = 1 := by
  show Ideal.ofBits .f32 0x3F800000#32 = 1
  rw [show (1 : EReal) = ((1 : ℝ) : EReal) by norm_cast]
  simp [Ideal.ofBits, Ideal.ieee, -EReal.coe_mul]; norm_num

/-- The pattern 0x00000000 is zero. -/
theorem zero_f32 : (FloatOps.ofBits (F := Ideal) .f32 0x00000000#32 : EReal) = 0 := Ideal.ofBits_zero_f32

/-- The reciprocal square root of a vector reads elementwise. -/
theorem rsqrt_apply {s : Shape} {φ : FTy} (a : FVec Ideal s φ) (i : s.Idx) : rsqrt a i = Ideal.rsqrt (a i) := rfl

/-! ## The body's result at row p, column q -/

/-- What the body stores at (p, q) of its block: the sum over the eight features k of
    relu(agg(p, k) * nrm(din p) + b k) * nrm(dout p) * W(k, q). -/
theorem pay_apply (x0 : Vec Ideal S4000x8 .f32) (x1 x2 : Vec Ideal S4000x1 .f32) (x3 : Vec Ideal S1x8 .f32) (x4 : Vec Ideal S8x1 .f32) (p : Fin 4000) (q : Fin 1) :
    k1_pay1 (F := Ideal) x0 x1 x2 x3 x4 (ix2 p q)
      = ∑ k : Fin 8, (max (x0 (ix2 p k) * Cert.Spec.nrm (x1 (ix2 p 0)) + x3 (ix2 0 k)) 0 * Cert.Spec.nrm (x2 (ix2 p 0))) * x4 (ix2 k q) := by
  unfold k1_pay1
  refine (matmul_l2_apply _ _ p q).trans ?_
  refine Finset.sum_congr rfl fun k _ => ?_
  rw [truncf_apply, truncf_apply, mulf_apply, maximumf_apply, addf_apply, mulf_apply,
    broadcastTo_a1_ab_apply, broadcastTo_a1_ab_apply, broadcastTo_1b_ab_apply,
    rsqrt_apply, rsqrt_apply, maximumf_apply, maximumf_apply,
    shapeCast_self, shapeCast_self, shapeCast_self, shapeCast_self,
    broadcast_apply, broadcast_apply, one_f32, zero_f32]
  rfl

/-! ## A block of the body's result is a block of layer 2 -/

/-- If the body's five blocks hold, row by row, what the arrays hold at row (i 0), and the bias and the weights are whole,
    then the body's result at j is layer 2 of the arrays at i. -/
theorem pay_eq_layer2 (x0 : Vec Ideal S4000x8 .f32) (x1 x2 : Vec Ideal S4000x1 .f32) (x3 : Vec Ideal S1x8 .f32) (x4 : Vec Ideal S8x1 .f32)
    (A0 : Cert.Spec.Arr 100000 8) (A1 A2 : Cert.Spec.Arr 100000 1) (A3 : Cert.Spec.Arr 1 8) (A4 : Cert.Spec.Arr 8 1)
    (j : S4000x1.Idx) (i : S100000x1.Idx)
    (h0 : ∀ k : Fin 8, x0 (ix2 (j 0) k) = A0 (ix2 (i 0) k))
    (h1 : x1 (ix2 (j 0) 0) = A1 (ix2 (i 0) 0))
    (h2 : x2 (ix2 (j 0) 0) = A2 (ix2 (i 0) 0))
    (h3 : ∀ k : Fin 8, x3 (ix2 0 k) = A3 (ix2 0 k))
    (h4 : ∀ k : Fin 8, x4 (ix2 k (j 1)) = A4 (ix2 k (i 1))) :
    k1_pay1 (F := Ideal) x0 x1 x2 x3 x4 j = Cert.Spec.layer2 A0 A1 A2 A3 A4 i := by
  obtain ⟨p, q, rfl⟩ : ∃ (p : Fin 4000) (q : Fin 1), j = ix2 p q := ⟨j 0, j 1, eq_ix2 j⟩
  rw [pay_apply]
  unfold Cert.Spec.layer2
  refine Finset.sum_congr rfl fun k _ => ?_
  rw [h0 k, h1, h2, h3 k, h4 k]

/-! ## The windows' index maps over the grid -/

theorem hz : (![0, 0] : Fin 2 → Nat) = fun _ => 0 := funext fun a => by fin_cases a <;> rfl

/-- The aggregate, the two degree columns and the output move together, one block of 4000 rows per point; the bias and the
    weights stay at block (0, 0). -/
theorem idx_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every point writes its output block back. -/
theorem flush_all : ∀ t : Fin cfg1.N, (cfg1.win 5).flush t = true :=
  (by decide +kernel : ∀ t : Fin grid1.N, _)

/-- What point t writes back is block t of layer 2 of the arrays as the region finds them. -/
theorem flushed_eq (c : Dev nD) (t : Fin cfg1.N) :
    (dat1 (F := Ideal) V c).flushed 5 t = ((cfg1.win 5).blk t).view.read (Elt Ideal)
      (Cert.Spec.layer2 (V c main_v14) (V c main_v15) (V c main_v16) (V c main_v17) (V c main_arg5)) := by
  show (cfg1.win 5).cut (grid1.coords t) ((dat1 (F := Ideal) V c).after 5 t) = _
  rw [after1_5]
  unfold out1_5
  rw [View.canon_unit_zero hz]
  simp only [View.ld_unit_zero (S := S4000x8) hz, View.ld_unit_zero (S := S4000x1) hz, View.ld_unit_zero (S := S1x8) hz, View.ld_unit_zero (S := S8x1) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
      = Cert.Spec.layer2 (V c main_v14) (V c main_v15) (V c main_v16) (V c main_v17) (V c main_arg5) (((cfg1.win 5).blk t).view.emb j)
  have hj0 : (j 0).val < 4000 := (j 0).isLt
  have hj1 : (j 1).val < 1 := (j 1).isLt
  refine pay_eq_layer2 _ _ _ _ _ _ _ _ _ _ j _ (fun k => ?_) ?_ ?_ (fun k => ?_) (fun k => ?_)
  · -- the aggregate's block: row (j 0) of block t is row 4000 t + (j 0) of the array
    show V c main_v14 (((cfg1.win 0).blk t).view.emb (ix2 (j 0) k)) = V c main_v14 (ix2 ((((cfg1.win 5).blk t).view.emb j) 0) k)
    refine congrArg _ (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 8 + 1 * k.val = k.val; omega
  · -- the in-degree column
    show V c main_v15 (((cfg1.win 1).blk t).view.emb (ix2 (j 0) 0)) = V c main_v15 (ix2 ((((cfg1.win 5).blk t).view.emb j) 0) 0)
    refine congrArg _ (funext fun a => Fin.ext ?_)
    match a with
    | ⟨0, _⟩ => show win1_1.index t (0 : Fin 2) * 4000 + 1 * (j 0).val = win1_5.index t (0 : Fin 2) * 4000 + 1 * (j 0).val; omega
    | ⟨1, _⟩ => show win1_1.index t (1 : Fin 2) * 1 + 1 * 0 = 0; omega
  · -- the out-degree column
    show V c main_v16 (((cfg1.win 2).blk t).view.emb (ix2 (j 0) 0)) = V c main_v16 (ix2 ((((cfg1.win 5).blk t).view.emb j) 0) 0)
    refine congrArg _ (funext fun a => Fin.ext ?_)
    match a with
    | ⟨0, _⟩ => show win1_2.index t (0 : Fin 2) * 4000 + 1 * (j 0).val = win1_5.index t (0 : Fin 2) * 4000 + 1 * (j 0).val; omega
    | ⟨1, _⟩ => show win1_2.index t (1 : Fin 2) * 1 + 1 * 0 = 0; omega
  · -- the bias row, whole at every point
    show V c main_v17 (((cfg1.win 3).blk t).view.emb (ix2 0 k)) = V c main_v17 (ix2 0 k)
    refine congrArg _ (funext fun a => Fin.ext ?_)
    match a with
    | ⟨0, _⟩ => show win1_3.index t (0 : Fin 2) * 1 + 1 * 0 = 0; omega
    | ⟨1, _⟩ => show win1_3.index t (1 : Fin 2) * 8 + 1 * k.val = k.val; omega
  · -- the weights, whole at every point; the output's one column is column 0 of the array
    show V c main_arg5 (((cfg1.win 4).blk t).view.emb (ix2 k (j 1))) = V c main_arg5 (ix2 k ((((cfg1.win 5).blk t).view.emb j) 1))
    refine congrArg _ (funext fun a => Fin.ext ?_)
    match a with
    | ⟨0, _⟩ => show win1_4.index t (0 : Fin 2) * 8 + 1 * k.val = k.val; omega
    | ⟨1, _⟩ => show win1_4.index t (1 : Fin 2) * 1 + 1 * (j 1).val = win1_5.index t (1 : Fin 2) * 1 + 1 * (j 1).val; omega

/-! ## The output's blocks cover its array -/

/-- An index of the array is in point t's block iff each coordinate is in the block's range on its axis. -/
theorem mem_blk (t : Fin cfg1.N) (i : S100000x1.Idx) :
    i ∈ ((cfg1.win 5).blk t).view.set ↔ ∀ a : Fin 2, win1_5.index t a * S4000x1.size a ≤ (i a).val ∧ (i a).val < win1_5.index t a * S4000x1.size a + S4000x1.size a := by
  show i ∈ ((View.whole main_v18).slice (win1_5.rect t)).set ↔ _
  rw [View.set_slice_whole, Rect.mem_set_unit]
  exact Iff.rfl

/-- Row r of the array lies in the block of point r / 4000, and that point writes back. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 25 := rfl
  obtain ⟨t, ht⟩ : ∃ t : Fin cfg1.N, t.val = (i 0).val / 4000 := ⟨⟨(i 0).val / 4000, by rw [hN]; omega⟩, rfl⟩
  obtain ⟨-, -, -, -, -, -, -, -, -, -, e50, e51⟩ := idx_facts t
  refine ⟨t, flush_all t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 1 ≤ (i 1).val ∧ (i 1).val < win1_5.index t (1 : Fin 2) * 1 + 1; omega

/-! ## The array after the region -/

theorem region1_value (c : Dev nD) :
    (dat1 (F := Ideal) V c).arrAt 5 cfg1.N
      = Cert.Spec.layer2 (V c main_v14) (V c main_v15) (V c main_v16) (V c main_v17) (V c main_arg5) :=
  (dat1 (F := Ideal) V c).arrAt_eq_of_cover 5 _ (fun t _ => flushed_eq V c t) cover

end Cert.KernelIdeal.Layers

end
-- ==== Proof.RegionC.lean ====
import proofs.«404905_j37572373905750_3_alg».proof.Proof.Gen.KernelIdeal.Frame
import proofs.«404905_j37572373905750_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-!
  The last map of the second layer, on the third pipeline: 25 grid points, point `t` taking rows 4000 t .. 4000 t + 3999
  of the aggregate column and of the in-degree column and the whole 1 x 1 bias, and writing rows 4000 t .. 4000 t + 3999
  of the output column. Row by row the body computes  aggregate * 1/sqrt(max(in-degree, 1)) + bias, which is
  `Cert.Spec.layer3` read at that row; the 25 blocks of 4000 rows tile the 100000 rows, so the output array after the
  last point is `Cert.Spec.layer3` of the three input arrays.
-/

namespace Finalize

/-! ## The body's arithmetic at an index -/

/-- The word 0x3F800000 is the number one. -/
theorem one_f32 : Ideal.ofBits .f32 0x3F800000#32 = 1 := by
  simp [Ideal.ofBits, Ideal.ieee]
  norm_cast
  norm_num

/-- The reciprocal square root of a vector is taken entry by entry. -/
theorem rsqrt_apply {s : Shape} {φ : FTy} (a : FVec Ideal s φ) (i : s.Idx) : rsqrt a i = Ideal.rsqrt (a i) := rfl

/-- Row `p` of what the body stores: the aggregate's entry times the normalisation of the in-degree's entry, plus
    the bias's one entry (the casts to the same shape are the identity, the bias's 1 x 1 array spread down the column
    reads its one entry, and the constant the in-degree is clamped at is one). -/
theorem payload_at (agg din : Vec Ideal S4000x1 .f32) (b : Vec Ideal S1x1 .f32) (p : Fin 4000) (q : Fin 1) :
    k2_pay1 (F := Ideal) agg din b (ix2 p q) = agg (ix2 p q) * Cert.Spec.nrm (din (ix2 p q)) + b (ix2 0 0) := by
  unfold k2_pay1
  simp only [shapeCast_self]
  rw [addf_apply, mulf_apply, rsqrt_apply, maximumf_apply, broadcast_apply, broadcastTo_1b_ab_apply]
  have hq : q = 0 := Subsingleton.elim _ _
  subst hq
  show _ * Ideal.rsqrt (max _ (Ideal.ofBits .f32 0x3F800000#32)) + _ = _
  rw [one_f32]
  rfl

/-- The same at any index of the block. -/
theorem payload_apply (agg din : Vec Ideal S4000x1 .f32) (b : Vec Ideal S1x1 .f32) (j : S4000x1.Idx) :
    k2_pay1 (F := Ideal) agg din b j = agg j * Cert.Spec.nrm (din j) + b (ix2 0 0) := by
  rw [eq_ix2 j]
  exact payload_at agg din b (j 0) (j 1)

/-! ## What a grid point writes back -/

/-- The offsets of the body's whole-buffer accesses are zero on both axes. -/
theorem zeros : (![0, 0] : Fin 2 → Nat) = fun _ => 0 := funext fun a => by fin_cases a <;> rfl

/-- The index maps over the grid: at point `t` the aggregate's, the in-degree's and the output's blocks are block `t`
    on the row axis and block 0 on the column axis; the bias's block is block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the whole-array function: at row `y` of the block the body reads the
    aggregate and the in-degree at row 4000 t + y of their arrays, which is where the output's block puts that row
    (a block's coordinate is its block index times the block's size plus the coordinate inside the block), and the
    bias at its one entry. -/
theorem flushed_eq (c : Dev nD) (t : Fin cfg2.N) :
    (dat2 (F := Ideal) V c).flushed 3 t
      = ((cfg2.win 3).blk t).view.read (Elt Ideal) (Cert.Spec.layer3 (V c main_v22) (V c main_v23) (V c main_v24)) := by
  show (cfg2.win 3).cut (grid2.coords t) ((dat2 V c).after 3 t) = _
  rw [after2_3]
  unfold out2_3
  rw [View.canon_unit_zero zeros]
  simp only [View.ld_unit_zero (S := S4000x1) zeros, View.ld_unit_zero (S := S1x1) zeros]
  obtain ⟨a0, a1, d0, d1, b0, b1, o0, o1⟩ := block_indices t
  funext j
  show k2_pay1 (F := Ideal) (iblk2 V c 0 t) (iblk2 V c 1 t) (iblk2 V c 2 t) j
      = Cert.Spec.layer3 (V c main_v22) (V c main_v23) (V c main_v24) (((cfg2.win 3).blk t).view.emb j)
  refine (payload_apply _ _ _ j).trans ?_
  have hagg : ((cfg2.win 0).blk t).view.emb j = ((cfg2.win 3).blk t).view.emb j := by
    funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 1 + 1 * (j 1).val = win2_3.index t (1 : Fin 2) * 1 + 1 * (j 1).val; omega
  have hdin : ((cfg2.win 1).blk t).view.emb j = ((cfg2.win 3).blk t).view.emb j := by
    funext a; apply Fin.ext
    match a with
    | ⟨0, _⟩ => show win2_1.index t (0 : Fin 2) * 4000 + 1 * (j 0).val = win2_3.index t (0 : Fin 2) * 4000 + 1 * (j 0).val; omega
    | ⟨1, _⟩ => show win2_1.index t (1 : Fin 2) * 1 + 1 * (j 1).val = win2_3.index t (1 : Fin 2) * 1 + 1 * (j 1).val; omega
  have hb : ((cfg2.win 2).blk t).view.emb (ix2 0 0) = ix2 0 0 := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have key : ∀ (A D : Cert.Spec.Arr 100000 1) (B : Cert.Spec.Arr 1 1),
      A (((cfg2.win 0).blk t).view.emb j) * Cert.Spec.nrm (D (((cfg2.win 1).blk t).view.emb j))
          + B (((cfg2.win 2).blk t).view.emb (ix2 0 0))
        = A (((cfg2.win 3).blk t).view.emb j) * Cert.Spec.nrm (D (((cfg2.win 3).blk t).view.emb j)) + B (ix2 0 0) := by
    intro A D B
    rw [hagg, hdin, hb]
  exact key (V c main_v22) (V c main_v23) (V c main_v24)

/-! ## The blocks cover the array -/

/-- An index of the array is in point `t`'s block iff each coordinate is in the block's range on its axis. -/
theorem mem_block (t : Fin cfg2.N) (i : S100000x1.Idx) :
    i ∈ ((cfg2.win 3).blk t).view.set ↔ ∀ a : Fin 2, win2_3.index t a * S4000x1.size a ≤ (i a).val
      ∧ (i a).val < win2_3.index t a * S4000x1.size a + S4000x1.size a := by
  show i ∈ ((View.whole main_v25).slice (win2_3.rect t)).set ↔ _
  rw [View.set_slice_whole, Rect.mem_set_unit]
  exact Iff.rfl

/-- Row `r` of the array lies in the block of point `r / 4000` (25 blocks of 4000 rows are the 100000 rows), and
    every point writes its block back. -/
theorem covered (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have ht : (i 0).val / 4000 < cfg2.N := by show (i 0).val / 4000 < 25; omega
  obtain ⟨-, -, -, -, -, -, o0, o1⟩ := block_indices ⟨(i 0).val / 4000, ht⟩
  refine ⟨⟨(i 0).val / 4000, ht⟩, flush2_3 _, ?_⟩
  rw [mem_block]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [o0]
    show (i 0).val / 4000 * 4000 ≤ (i 0).val ∧ (i 0).val < (i 0).val / 4000 * 4000 + 4000
    omega
  | ⟨1, _⟩ =>
    show win2_3.index ⟨(i 0).val / 4000, ht⟩ (1 : Fin 2) * 1 ≤ (i 1).val
      ∧ (i 1).val < win2_3.index ⟨(i 0).val / 4000, ht⟩ (1 : Fin 2) * 1 + 1
    rw [o1]
    omega

end Finalize

/-! ## The array after the last point -/

/-- Every point writes block `t` of `Cert.Spec.layer3` of the input arrays and the blocks cover the output array, so after
    the last point the output array is that function. -/
theorem region2_value (c : Dev nD) :
    (dat2 (F := Ideal) V c).arrAt 3 cfg2.N = Cert.Spec.layer3 (V c main_v22) (V c main_v23) (V c main_v24) :=
  (dat2 (F := Ideal) V c).arrAt_eq_of_cover 3 (Cert.Spec.layer3 (V c main_v22) (V c main_v23) (V c main_v24))
    (fun t _ => Finalize.flushed_eq V c t) Finalize.covered

end Cert.KernelIdeal.Layers

end
-- ==== Proof.ChainDefs.lean ====
/-
  The kernel program's host operations between its launches, named, and its result as one composition.

  Between its three launches the kernel's @main does, on the host: the two degree counts (integer ones scattered by
  word addition, converted, laid as columns); twice, a row gather along the edges' sources (negative indices wrapped
  once, rows whose index is still out of range filled) followed by the accumulating scatter at the edges' destinations;
  and reshapes of the biases.
-/
import proofs.«404905_j37572373905750_3_alg».proof.Proof.Gen.KernelIdeal
import proofs.«404905_j37572373905750_3_alg».proof.Proof.Spec

noncomputable section

namespace Cert.KernelIdeal.Chain

open Idealize.ShloMosaic Idealize.ShloMosaic.ValueIdx
open Cert.KernelIdeal Cert.KernelIdeal.Gen

/-! ## The host operations, named -/

/-- An index vector with its negative entries wrapped once (i + 100000 where i < 0), as a column. -/
def wrap (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- Per edge: is the (wrapped) index in 0 .. 99999?  The and over the column's one component of the two comparisons. -/
def inRange (col : IVec S3200000x1 32) : IVec S3200000 1 :=
  Host.reduce IntOp.andi
    (andi (cmpi .sge col (broadcastInDim S3200000x1 ![] bcast_S_S3200000x1 (constantI S_ 32 0#32)))
      (cmpi .sle col (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The row gather of an [N, 8] array along the sources, out-of-range rows filled. -/
def take8 (h : FVec Ideal S100000x8 .f32) (s : IVec S3200000 32) : FVec Ideal S3200000x8 .f32 :=
  select (broadcastInDim S3200000x8 ![0] bcast_S3200000_S3200000x8_0 (inRange (wrap s)))
    (Host.gather gather_S100000x8_S3200000x1_S3200000x8_1_0_n_n_0_1_18 h (wrap s))
    (broadcastInDim S3200000x8 ![] bcast_S_S3200000x8 (constant (F := Ideal) S_ .f32 0x7FC00000#32))

/-- The same of an [N, 1] array. -/
def take1 (h : FVec Ideal S100000x1 .f32) (s : IVec S3200000 32) : FVec Ideal S3200000x1 .f32 :=
  select (broadcastInDim S3200000x1 ![0] bcast_S3200000_S3200000x1_0 (inRange (wrap s)))
    (Host.gather gather_S100000x1_S3200000x1_S3200000x1_1_0_n_n_0_1_11 h (wrap s))
    (broadcastInDim S3200000x1 ![] bcast_S_S3200000x1 (constant (F := Ideal) S_ .f32 0x7FC00000#32))

/-- The accumulating scatter of [E, 8] rows at the destinations into zeros. -/
def seg8 (d : IVec S3200000 32) (u : FVec Ideal S3200000x8 .f32) : FVec Ideal S100000x8 .f32 :=
  Host.scatterAdd scatter_S100000x8_S3200000x1_S3200000x8_1_0_0_1
    (broadcastInDim S100000x8 ![] bcast_S_S100000x8 (constant (F := Ideal) S_ .f32 0x00000000#32))
    (broadcastInDim S3200000x1 ![0] bcast_S3200000_S3200000x1_0 d) u

/-- The same of [E, 1] rows. -/
def seg1 (d : IVec S3200000 32) (u : FVec Ideal S3200000x1 .f32) : FVec Ideal S100000x1 .f32 :=
  Host.scatterAdd scatter_S100000x1_S3200000x1_S3200000x1_1_0_0_1
    (broadcastInDim S100000x1 ![] bcast_S_S100000x1 (constant (F := Ideal) S_ .f32 0x00000000#32))
    (broadcastInDim S3200000x1 ![0] bcast_S3200000_S3200000x1_0 d) u

/-- A degree vector: integer ones scattered by word addition at the indices into zeros, converted. -/
def degVec (idx : IVec S3200000 32) : FVec Ideal S100000 .f32 :=
  sitofp .f32 (Host.scatter scatter_S100000_S3200000x1_S3200000_n_0_0_1 IntOp.addi
    (broadcastInDim S100000 ![] bcast_S_S100000 (constantI S_ 32 0#32))
    (broadcastInDim S3200000x1 ![0] bcast_S3200000_S3200000x1_0 idx)
    (broadcastInDim S3200000 ![] bcast_S_S3200000 (constantI S_ 32 1#32)))

/-- The degree vector as a column. -/
def degCol (idx : IVec S3200000 32) : FVec Ideal S100000x1 .f32 :=
  shapeCast S100000x1 (degVec idx) shapeCasts_S100000_S100000x1

/-- The kernel program's result, from its arguments. -/
def result (x : FVec Ideal S100000x128 .f32) (src dst : IVec S3200000 32) (W1 : FVec Ideal S128x8 .f32)
    (b1 : FVec Ideal S8 .f32) (W2 : FVec Ideal S8x1 .f32) (b2 : FVec Ideal S1 .f32) : FVec Ideal S100000x1 .f32 :=
  Cert.Spec.layer3
    (seg1 dst (take1
      (Cert.Spec.layer2
        (seg8 dst (take8 (Cert.Spec.layer1 x (degCol src) W1) src))
        (degCol dst) (degCol src) (shapeCast S1x8 b1 shapeCasts_S8_S1x8) W2)
      src))
    (degCol dst) (shapeCast S1x1 b2 shapeCasts_S1_S1x1)

end Cert.KernelIdeal.Chain

end
-- ==== Proof.TakeOps.lean ====
/-
  The two row-gather stretches of the kernel's @main, spelt over plain buffer references.

  The generated launch module lists the operations of each outlined gather over typed references, whose values pass
  through a transport along "this buffer's type is the value's type".  That transport is the identity, so the same
  operations over the bare buffers, with the same functions, are the same list: stated here once per stretch, so that a
  buffer's contents after the stretch can be read off without the transports.
-/
import proofs.«404905_j37572373905750_3_alg».proof.Proof.Gen.KernelIdeal.Launch

set_option maxRecDepth 16384

noncomputable section

namespace Cert.KernelIdeal.Gen

open Idealize.ShloMosaic Idealize.ShloMosaic.TcCoe Idealize.SL.Sem

variable {F : FTy → Type} [FloatOps F]

/-- The first gather's 23 operations (the [N, 8] rows along the sources), over plain references. -/
abbrev takeOps8 : List (HloOp τ sig (Elt F)) :=
  [
    StableHlo.nullary main_call0_c ((constantI S_ 32 0#32) : (⟨S_, .i32⟩ : BufTy).Contents (Elt F)),
    StableHlo.unary main_call0_c main_call0_v0 ((broadcastInDim S3200000 ![] bcast_S_S3200000) : (⟨S_, .i32⟩ : BufTy).Contents (Elt F) → (⟨S3200000, .i32⟩ : BufTy).Contents (Elt F)),
    StableHlo.binary main_arg1 main_call0_v0 main_call0_v1 ((cmpi .slt) : (⟨S3200000, .i32⟩ : BufTy).Contents (Elt F) → (⟨S3200000, .i32⟩ : BufTy).Contents (Elt F) → (⟨S3200000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S3200000 ![] bcast_S_S3200000) : (⟨S_, .i32⟩ : BufTy).Contents (Elt F) → (⟨S3200000, .i32⟩ : BufTy).Contents (Elt F)),
    StableHlo.binary main_arg1 main_call0_v2 main_call0_v3 ((addi) : (⟨S3200000, .i32⟩ : BufTy).Contents (Elt F) → (⟨S3200000, .i32⟩ : BufTy).Contents (Elt F) → (⟨S3200000, .i32⟩ : BufTy).Contents (Elt F)),
    StableHlo.ternary main_call0_v1 main_call0_v3 main_arg1 main_call0_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call0_v4 main_call0_v5 ((broadcastInDim S3200000x1 ![0] bcast_S3200000_S3200000x1_0) : (⟨S3200000, .i32⟩ : BufTy).Contents (Elt F) → (⟨S3200000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S3200000x1 ![] bcast_S_S3200000x1) : (⟨S_, .i32⟩ : BufTy).Contents (Elt F) → (⟨S3200000x1, .i32⟩ : BufTy).Contents (Elt F)),
    StableHlo.binary main_call0_v5 main_call0_v6 main_call0_v7 ((cmpi .sge) : (⟨S3200000x1, .i32⟩ : BufTy).Contents (Elt F) → (⟨S3200000x1, .i32⟩ : BufTy).Contents (Elt F) → (⟨S3200000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S3200000x1 ![0, 1] bcast_S1x1_S3200000x1_0_1) : (⟨S1x1, .i32⟩ : BufTy).Contents (Elt F) → (⟨S3200000x1, .i32⟩ : BufTy).Contents (Elt F)),
    StableHlo.binary main_call0_v5 main_call0_v9 main_call0_v10 ((cmpi .sle) : (⟨S3200000x1, .i32⟩ : BufTy).Contents (Elt F) → (⟨S3200000x1, .i32⟩ : BufTy).Contents (Elt F) → (⟨S3200000x1, .i1⟩ : BufTy).Contents (Elt F)),
    StableHlo.binary main_call0_v7 main_call0_v10 main_call0_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S3200000x1_S3200000_d1 h_S_) : (⟨S3200000x1, .i1⟩ : BufTy).Contents (Elt F) → (⟨S_, .i1⟩ : BufTy).Contents (Elt F) → (⟨S3200000, .i1⟩ : BufTy).Contents (Elt F)),
    StableHlo.binary main_v10 main_call0_v5 main_call0_v13 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.unary main_call0_v12 main_call0_v14 ((broadcastInDim S3200000x8 ![0] bcast_S3200000_S3200000x8_0) : (⟨S3200000, .i1⟩ : BufTy).Contents (Elt F) → (⟨S3200000x8, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S3200000x8 ![] bcast_S_S3200000x8) : (⟨S_, .f32⟩ : BufTy).Contents (Elt F) → (⟨S3200000x8, .f32⟩ : BufTy).Contents (Elt F)),
    StableHlo.ternary main_call0_v14 main_call0_v13 main_call0_v15 main_v11 ((select) : (⟨S3200000x8, .i1⟩ : BufTy).Contents (Elt F) → (⟨S3200000x8, .f32⟩ : BufTy).Contents (Elt F) → (⟨S3200000x8, .f32⟩ : BufTy).Contents (Elt F) → (⟨S3200000x8, .f32⟩ : BufTy).Contents (Elt F)) ]

/-- The second gather's 23 operations (the [N, 1] rows along the sources), over plain references. -/
abbrev takeOps1 : List (HloOp τ sig (Elt F)) :=
  [
    StableHlo.nullary main_call1_c ((constantI S_ 32 0#32) : (⟨S_, .i32⟩ : BufTy).Contents (Elt F)),
    StableHlo.unary main_call1_c main_call1_v0 ((broadcastInDim S3200000 ![] bcast_S_S3200000) : (⟨S_, .i32⟩ : BufTy).Contents (Elt F) → (⟨S3200000, .i32⟩ : BufTy).Contents (Elt F)),
    StableHlo.binary main_arg1 main_call1_v0 main_call1_v1 ((cmpi .slt) : (⟨S3200000, .i32⟩ : BufTy).Contents (Elt F) → (⟨S3200000, .i32⟩ : BufTy).Contents (Elt F) → (⟨S3200000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S3200000 ![] bcast_S_S3200000) : (⟨S_, .i32⟩ : BufTy).Contents (Elt F) → (⟨S3200000, .i32⟩ : BufTy).Contents (Elt F)),
    StableHlo.binary main_arg1 main_call1_v2 main_call1_v3 ((addi) : (⟨S3200000, .i32⟩ : BufTy).Contents (Elt F) → (⟨S3200000, .i32⟩ : BufTy).Contents (Elt F) → (⟨S3200000, .i32⟩ : BufTy).Contents (Elt F)),
    StableHlo.ternary main_call1_v1 main_call1_v3 main_arg1 main_call1_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call1_v4 main_call1_v5 ((broadcastInDim S3200000x1 ![0] bcast_S3200000_S3200000x1_0) : (⟨S3200000, .i32⟩ : BufTy).Contents (Elt F) → (⟨S3200000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S3200000x1 ![] bcast_S_S3200000x1) : (⟨S_, .i32⟩ : BufTy).Contents (Elt F) → (⟨S3200000x1, .i32⟩ : BufTy).Contents (Elt F)),
    StableHlo.binary main_call1_v5 main_call1_v6 main_call1_v7 ((cmpi .sge) : (⟨S3200000x1, .i32⟩ : BufTy).Contents (Elt F) → (⟨S3200000x1, .i32⟩ : BufTy).Contents (Elt F) → (⟨S3200000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S3200000x1 ![0, 1] bcast_S1x1_S3200000x1_0_1) : (⟨S1x1, .i32⟩ : BufTy).Contents (Elt F) → (⟨S3200000x1, .i32⟩ : BufTy).Contents (Elt F)),
    StableHlo.binary main_call1_v5 main_call1_v9 main_call1_v10 ((cmpi .sle) : (⟨S3200000x1, .i32⟩ : BufTy).Contents (Elt F) → (⟨S3200000x1, .i32⟩ : BufTy).Contents (Elt F) → (⟨S3200000x1, .i1⟩ : BufTy).Contents (Elt F)),
    StableHlo.binary main_call1_v7 main_call1_v10 main_call1_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S3200000x1_S3200000_d1 h_S_) : (⟨S3200000x1, .i1⟩ : BufTy).Contents (Elt F) → (⟨S_, .i1⟩ : BufTy).Contents (Elt F) → (⟨S3200000, .i1⟩ : BufTy).Contents (Elt F)),
    StableHlo.binary main_v18 main_call1_v5 main_call1_v13 ((fun x i => Host.gather gather_S100000x1_S3200000x1_S3200000x1_1_0_n_n_0_1_11 x i) : (⟨S100000x1, .f32⟩ : BufTy).Contents (Elt F) → (⟨S3200000x1, .i32⟩ : BufTy).Contents (Elt F) → (⟨S3200000x1, .f32⟩ : BufTy).Contents (Elt F)),
    StableHlo.unary main_call1_v12 main_call1_v14 ((broadcastInDim S3200000x1 ![0] bcast_S3200000_S3200000x1_0) : (⟨S3200000, .i1⟩ : BufTy).Contents (Elt F) → (⟨S3200000x1, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S3200000x1 ![] bcast_S_S3200000x1) : (⟨S_, .f32⟩ : BufTy).Contents (Elt F) → (⟨S3200000x1, .f32⟩ : BufTy).Contents (Elt F)),
    StableHlo.ternary main_call1_v14 main_call1_v13 main_call1_v15 main_v19 ((select) : (⟨S3200000x1, .i1⟩ : BufTy).Contents (Elt F) → (⟨S3200000x1, .f32⟩ : BufTy).Contents (Elt F) → (⟨S3200000x1, .f32⟩ : BufTy).Contents (Elt F) → (⟨S3200000x1, .f32⟩ : BufTy).Contents (Elt F)) ]

/-! Operation by operation, the typed spelling is the plain one: a transport along a type equation that holds by
    computation is the identity (for the and-reduction the two functions are compared pointwise, the transports removed). -/

theorem take8_op_1 : (StableHlo.TRef.nullary (.of main_call0_c : StableHlo.TRef sig ⟨S_, .i32⟩) (constantI S_ 32 0#32) : HloOp τ sig (Elt F))
    = StableHlo.nullary main_call0_c ((constantI S_ 32 0#32) : (⟨S_, .i32⟩ : BufTy).Contents (Elt F)) :=
  rfl
theorem take8_op_2 : (StableHlo.TRef.unary (.of main_call0_c : StableHlo.TRef sig ⟨S_, .i32⟩) (.of main_call0_v0 : StableHlo.TRef sig ⟨S3200000, .i32⟩) (broadcastInDim S3200000 ![] bcast_S_S3200000) : HloOp τ sig (Elt F))
    = StableHlo.unary main_call0_c main_call0_v0 ((broadcastInDim S3200000 ![] bcast_S_S3200000) : (⟨S_, .i32⟩ : BufTy).Contents (Elt F) → (⟨S3200000, .i32⟩ : BufTy).Contents (Elt F)) :=
  rfl
theorem take8_op_3 : (StableHlo.TRef.binary (.of main_arg1 : StableHlo.TRef sig ⟨S3200000, .i32⟩) (.of main_call0_v0 : StableHlo.TRef sig ⟨S3200000, .i32⟩) (.of main_call0_v1 : StableHlo.TRef sig ⟨S3200000, .i1⟩) (cmpi .slt) : HloOp τ sig (Elt F))
    = StableHlo.binary main_arg1 main_call0_v0 main_call0_v1 ((cmpi .slt) : (⟨S3200000, .i32⟩ : BufTy).Contents (Elt F) → (⟨S3200000, .i32⟩ : BufTy).Contents (Elt F) → (⟨S3200000, .i1⟩ : BufTy).Contents (Elt F)) :=
  rfl
theorem take8_op_4 : (StableHlo.TRef.nullary (.of main_call0_c_0 : StableHlo.TRef sig ⟨S_, .i32⟩) (constantI S_ 32 100000#32) : HloOp τ sig (Elt F))
    = StableHlo.nullary main_call0_c_0 ((constantI S_ 32 100000#32) : (⟨S_, .i32⟩ : BufTy).Contents (Elt F)) :=
  rfl
theorem take8_op_5 : (StableHlo.TRef.unary (.of main_call0_c_0 : StableHlo.TRef sig ⟨S_, .i32⟩) (.of main_call0_v2 : StableHlo.TRef sig ⟨S3200000, .i32⟩) (broadcastInDim S3200000 ![] bcast_S_S3200000) : HloOp τ sig (Elt F))
    = StableHlo.unary main_call0_c_0 main_call0_v2 ((broadcastInDim S3200000 ![] bcast_S_S3200000) : (⟨S_, .i32⟩ : BufTy).Contents (Elt F) → (⟨S3200000, .i32⟩ : BufTy).Contents (Elt F)) :=
  rfl
theorem take8_op_6 : (StableHlo.TRef.binary (.of main_arg1 : StableHlo.TRef sig ⟨S3200000, .i32⟩) (.of main_call0_v2 : StableHlo.TRef sig ⟨S3200000, .i32⟩) (.of main_call0_v3 : StableHlo.TRef sig ⟨S3200000, .i32⟩) addi : HloOp τ sig (Elt F))
    = StableHlo.binary main_arg1 main_call0_v2 main_call0_v3 ((addi) : (⟨S3200000, .i32⟩ : BufTy).Contents (Elt F) → (⟨S3200000, .i32⟩ : BufTy).Contents (Elt F) → (⟨S3200000, .i32⟩ : BufTy).Contents (Elt F)) :=
  rfl
theorem take8_op_7 : (StableHlo.TRef.ternary (.of main_call0_v1 : StableHlo.TRef sig ⟨S3200000, .i1⟩) (.of main_call0_v3 : StableHlo.TRef sig ⟨S3200000, .i32⟩) (.of main_arg1 : StableHlo.TRef sig ⟨S3200000, .i32⟩) (.of main_call0_v4 : StableHlo.TRef sig ⟨S3200000, .i32⟩) select : HloOp τ sig (Elt F))
    = StableHlo.ternary main_call0_v1 main_call0_v3 main_arg1 main_call0_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) :=
  rfl
theorem take8_op_8 : (StableHlo.TRef.unary main_call0_call0.v0 (.of main_call0_v5 : StableHlo.TRef sig ⟨S3200000x1, .i32⟩) (broadcastInDim S3200000x1 ![0] bcast_S3200000_S3200000x1_0) : HloOp τ sig (Elt F))
    = StableHlo.unary main_call0_v4 main_call0_v5 ((broadcastInDim S3200000x1 ![0] bcast_S3200000_S3200000x1_0) : (⟨S3200000, .i32⟩ : BufTy).Contents (Elt F) → (⟨S3200000x1, .i32⟩ : BufTy).Contents (Elt F)) :=
  rfl
theorem take8_op_9 : (StableHlo.TRef.nullary (.of main_call0_c_1 : StableHlo.TRef sig ⟨S1, .i32⟩) (constantI S1 32 99999#32) : HloOp τ sig (Elt F))
    = StableHlo.nullary main_call0_c_1 ((constantI S1 32 99999#32) : (⟨S1, .i32⟩ : BufTy).Contents (Elt F)) :=
  rfl
theorem take8_op_10 : (StableHlo.TRef.nullary (.of main_call0_c_2 : StableHlo.TRef sig ⟨S_, .i32⟩) (constantI S_ 32 0#32) : HloOp τ sig (Elt F))
    = StableHlo.nullary main_call0_c_2 ((constantI S_ 32 0#32) : (⟨S_, .i32⟩ : BufTy).Contents (Elt F)) :=
  rfl
theorem take8_op_11 : (StableHlo.TRef.unary (.of main_call0_c_2 : StableHlo.TRef sig ⟨S_, .i32⟩) (.of main_call0_v6 : StableHlo.TRef sig ⟨S3200000x1, .i32⟩) (broadcastInDim S3200000x1 ![] bcast_S_S3200000x1) : HloOp τ sig (Elt F))
    = StableHlo.unary main_call0_c_2 main_call0_v6 ((broadcastInDim S3200000x1 ![] bcast_S_S3200000x1) : (⟨S_, .i32⟩ : BufTy).Contents (Elt F) → (⟨S3200000x1, .i32⟩ : BufTy).Contents (Elt F)) :=
  rfl
theorem take8_op_12 : (StableHlo.TRef.binary (.of main_call0_v5 : StableHlo.TRef sig ⟨S3200000x1, .i32⟩) (.of main_call0_v6 : StableHlo.TRef sig ⟨S3200000x1, .i32⟩) (.of main_call0_v7 : StableHlo.TRef sig ⟨S3200000x1, .i1⟩) (cmpi .sge) : HloOp τ sig (Elt F))
    = StableHlo.binary main_call0_v5 main_call0_v6 main_call0_v7 ((cmpi .sge) : (⟨S3200000x1, .i32⟩ : BufTy).Contents (Elt F) → (⟨S3200000x1, .i32⟩ : BufTy).Contents (Elt F) → (⟨S3200000x1, .i1⟩ : BufTy).Contents (Elt F)) :=
  rfl
theorem take8_op_13 : (StableHlo.TRef.unary (.of main_call0_c_1 : StableHlo.TRef sig ⟨S1, .i32⟩) (.of main_call0_v8 : StableHlo.TRef sig ⟨S1x1, .i32⟩) (broadcastInDim S1x1 ![1] bcast_S1_S1x1_1) : HloOp τ sig (Elt F))
    = StableHlo.unary main_call0_c_1 main_call0_v8 ((broadcastInDim S1x1 ![1] bcast_S1_S1x1_1) : (⟨S1, .i32⟩ : BufTy).Contents (Elt F) → (⟨S1x1, .i32⟩ : BufTy).Contents (Elt F)) :=
  rfl
theorem take8_op_14 : (StableHlo.TRef.unary (.of main_call0_v8 : StableHlo.TRef sig ⟨S1x1, .i32⟩) (.of main_call0_v9 : StableHlo.TRef sig ⟨S3200000x1, .i32⟩) (broadcastInDim S3200000x1 ![0, 1] bcast_S1x1_S3200000x1_0_1) : HloOp τ sig (Elt F))
    = StableHlo.unary main_call0_v8 main_call0_v9 ((broadcastInDim S3200000x1 ![0, 1] bcast_S1x1_S3200000x1_0_1) : (⟨S1x1, .i32⟩ : BufTy).Contents (Elt F) → (⟨S3200000x1, .i32⟩ : BufTy).Contents (Elt F)) :=
  rfl
theorem take8_op_15 : (StableHlo.TRef.binary (.of main_call0_v5 : StableHlo.TRef sig ⟨S3200000x1, .i32⟩) (.of main_call0_v9 : StableHlo.TRef sig ⟨S3200000x1, .i32⟩) (.of main_call0_v10 : StableHlo.TRef sig ⟨S3200000x1, .i1⟩) (cmpi .sle) : HloOp τ sig (Elt F))
    = StableHlo.binary main_call0_v5 main_call0_v9 main_call0_v10 ((cmpi .sle) : (⟨S3200000x1, .i32⟩ : BufTy).Contents (Elt F) → (⟨S3200000x1, .i32⟩ : BufTy).Contents (Elt F) → (⟨S3200000x1, .i1⟩ : BufTy).Contents (Elt F)) :=
  rfl
theorem take8_op_16 : (StableHlo.TRef.binary (.of main_call0_v7 : StableHlo.TRef sig ⟨S3200000x1, .i1⟩) (.of main_call0_v10 : StableHlo.TRef sig ⟨S3200000x1, .i1⟩) (.of main_call0_v11 : StableHlo.TRef sig ⟨S3200000x1, .i1⟩) andi : HloOp τ sig (Elt F))
    = StableHlo.binary main_call0_v7 main_call0_v10 main_call0_v11 ((andi) : (⟨S3200000x1, .i1⟩ : BufTy).Contents (Elt F) → (⟨S3200000x1, .i1⟩ : BufTy).Contents (Elt F) → (⟨S3200000x1, .i1⟩ : BufTy).Contents (Elt F)) :=
  rfl
theorem take8_op_17 : (StableHlo.TRef.nullary (.of main_call0_c_3 : StableHlo.TRef sig ⟨S_, .i1⟩) (constantI S_ 1 1#1) : HloOp τ sig (Elt F))
    = StableHlo.nullary main_call0_c_3 ((constantI S_ 1 1#1) : (⟨S_, .i1⟩ : BufTy).Contents (Elt F)) :=
  rfl
theorem take8_op_18 : (StableHlo.TRef.binary (.of main_call0_v11 : StableHlo.TRef sig ⟨S3200000x1, .i1⟩) (.of main_call0_c_3 : StableHlo.TRef sig ⟨S_, .i1⟩) (.of main_call0_v12 : StableHlo.TRef sig ⟨S3200000, .i1⟩) (fun x v => Host.reduce IntOp.andi x v reducesTo_S3200000x1_S3200000_d1 h_S_) : HloOp τ sig (Elt F))
    = StableHlo.binary main_call0_v11 main_call0_c_3 main_call0_v12 ((fun x v => Host.reduce IntOp.andi x v reducesTo_S3200000x1_S3200000_d1 h_S_) : (⟨S3200000x1, .i1⟩ : BufTy).Contents (Elt F) → (⟨S_, .i1⟩ : BufTy).Contents (Elt F) → (⟨S3200000, .i1⟩ : BufTy).Contents (Elt F)) :=
  congrArg (fun f : (⟨S3200000x1, .i1⟩ : BufTy).Contents (Elt F) → (⟨S_, .i1⟩ : BufTy).Contents (Elt F) → (⟨S3200000, .i1⟩ : BufTy).Contents (Elt F) => StableHlo.binary main_call0_v11 main_call0_c_3 main_call0_v12 f)
    (funext fun u => funext fun v => by simp only [StableHlo.TRef.toBuf, StableHlo.TRef.ofBuf, cast_eq])
theorem take8_op_19 : (StableHlo.TRef.binary (.of main_v10 : StableHlo.TRef sig ⟨S100000x8, .f32⟩) (.of main_call0_v5 : StableHlo.TRef sig ⟨S3200000x1, .i32⟩) (.of main_call0_v13 : StableHlo.TRef sig ⟨S3200000x8, .f32⟩) (fun x i => Host.gather gather_S100000x8_S3200000x1_S3200000x8_1_0_n_n_0_1_18 x i) : HloOp τ sig (Elt F))
    = StableHlo.binary main_v10 main_call0_v5 main_call0_v13 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) :=
  rfl
theorem take8_op_20 : (StableHlo.TRef.unary (.of main_call0_v12 : StableHlo.TRef sig ⟨S3200000, .i1⟩) (.of main_call0_v14 : StableHlo.TRef sig ⟨S3200000x8, .i1⟩) (broadcastInDim S3200000x8 ![0] bcast_S3200000_S3200000x8_0) : HloOp τ sig (Elt F))
    = StableHlo.unary main_call0_v12 main_call0_v14 ((broadcastInDim S3200000x8 ![0] bcast_S3200000_S3200000x8_0) : (⟨S3200000, .i1⟩ : BufTy).Contents (Elt F) → (⟨S3200000x8, .i1⟩ : BufTy).Contents (Elt F)) :=
  rfl
theorem take8_op_21 : (StableHlo.TRef.nullary (.of main_call0_cst : StableHlo.TRef sig ⟨S_, .f32⟩) (constant S_ .f32 0x7FC00000#32) : HloOp τ sig (Elt F))
    = StableHlo.nullary main_call0_cst ((constant S_ .f32 0x7FC00000#32) : (⟨S_, .f32⟩ : BufTy).Contents (Elt F)) :=
  rfl
theorem take8_op_22 : (StableHlo.TRef.unary (.of main_call0_cst : StableHlo.TRef sig ⟨S_, .f32⟩) (.of main_call0_v15 : StableHlo.TRef sig ⟨S3200000x8, .f32⟩) (broadcastInDim S3200000x8 ![] bcast_S_S3200000x8) : HloOp τ sig (Elt F))
    = StableHlo.unary main_call0_cst main_call0_v15 ((broadcastInDim S3200000x8 ![] bcast_S_S3200000x8) : (⟨S_, .f32⟩ : BufTy).Contents (Elt F) → (⟨S3200000x8, .f32⟩ : BufTy).Contents (Elt F)) :=
  rfl
theorem take8_op_23 : (StableHlo.TRef.ternary (.of main_call0_v14 : StableHlo.TRef sig ⟨S3200000x8, .i1⟩) (.of main_call0_v13 : StableHlo.TRef sig ⟨S3200000x8, .f32⟩) (.of main_call0_v15 : StableHlo.TRef sig ⟨S3200000x8, .f32⟩) (.of main_v11 : StableHlo.TRef sig ⟨S3200000x8, .f32⟩) select : HloOp τ sig (Elt F))
    = StableHlo.ternary main_call0_v14 main_call0_v13 main_call0_v15 main_v11 ((select) : (⟨S3200000x8, .i1⟩ : BufTy).Contents (Elt F) → (⟨S3200000x8, .f32⟩ : BufTy).Contents (Elt F) → (⟨S3200000x8, .f32⟩ : BufTy).Contents (Elt F) → (⟨S3200000x8, .f32⟩ : BufTy).Contents (Elt F)) :=
  rfl

theorem take1_op_1 : (StableHlo.TRef.nullary (.of main_call1_c : StableHlo.TRef sig ⟨S_, .i32⟩) (constantI S_ 32 0#32) : HloOp τ sig (Elt F))
    = StableHlo.nullary main_call1_c ((constantI S_ 32 0#32) : (⟨S_, .i32⟩ : BufTy).Contents (Elt F)) :=
  rfl
theorem take1_op_2 : (StableHlo.TRef.unary (.of main_call1_c : StableHlo.TRef sig ⟨S_, .i32⟩) (.of main_call1_v0 : StableHlo.TRef sig ⟨S3200000, .i32⟩) (broadcastInDim S3200000 ![] bcast_S_S3200000) : HloOp τ sig (Elt F))
    = StableHlo.unary main_call1_c main_call1_v0 ((broadcastInDim S3200000 ![] bcast_S_S3200000) : (⟨S_, .i32⟩ : BufTy).Contents (Elt F) → (⟨S3200000, .i32⟩ : BufTy).Contents (Elt F)) :=
  rfl
theorem take1_op_3 : (StableHlo.TRef.binary (.of main_arg1 : StableHlo.TRef sig ⟨S3200000, .i32⟩) (.of main_call1_v0 : StableHlo.TRef sig ⟨S3200000, .i32⟩) (.of main_call1_v1 : StableHlo.TRef sig ⟨S3200000, .i1⟩) (cmpi .slt) : HloOp τ sig (Elt F))
    = StableHlo.binary main_arg1 main_call1_v0 main_call1_v1 ((cmpi .slt) : (⟨S3200000, .i32⟩ : BufTy).Contents (Elt F) → (⟨S3200000, .i32⟩ : BufTy).Contents (Elt F) → (⟨S3200000, .i1⟩ : BufTy).Contents (Elt F)) :=
  rfl
theorem take1_op_4 : (StableHlo.TRef.nullary (.of main_call1_c_0 : StableHlo.TRef sig ⟨S_, .i32⟩) (constantI S_ 32 100000#32) : HloOp τ sig (Elt F))
    = StableHlo.nullary main_call1_c_0 ((constantI S_ 32 100000#32) : (⟨S_, .i32⟩ : BufTy).Contents (Elt F)) :=
  rfl
theorem take1_op_5 : (StableHlo.TRef.unary (.of main_call1_c_0 : StableHlo.TRef sig ⟨S_, .i32⟩) (.of main_call1_v2 : StableHlo.TRef sig ⟨S3200000, .i32⟩) (broadcastInDim S3200000 ![] bcast_S_S3200000) : HloOp τ sig (Elt F))
    = StableHlo.unary main_call1_c_0 main_call1_v2 ((broadcastInDim S3200000 ![] bcast_S_S3200000) : (⟨S_, .i32⟩ : BufTy).Contents (Elt F) → (⟨S3200000, .i32⟩ : BufTy).Contents (Elt F)) :=
  rfl
theorem take1_op_6 : (StableHlo.TRef.binary (.of main_arg1 : StableHlo.TRef sig ⟨S3200000, .i32⟩) (.of main_call1_v2 : StableHlo.TRef sig ⟨S3200000, .i32⟩) (.of main_call1_v3 : StableHlo.TRef sig ⟨S3200000, .i32⟩) addi : HloOp τ sig (Elt F))
    = StableHlo.binary main_arg1 main_call1_v2 main_call1_v3 ((addi) : (⟨S3200000, .i32⟩ : BufTy).Contents (Elt F) → (⟨S3200000, .i32⟩ : BufTy).Contents (Elt F) → (⟨S3200000, .i32⟩ : BufTy).Contents (Elt F)) :=
  rfl
theorem take1_op_7 : (StableHlo.TRef.ternary (.of main_call1_v1 : StableHlo.TRef sig ⟨S3200000, .i1⟩) (.of main_call1_v3 : StableHlo.TRef sig ⟨S3200000, .i32⟩) (.of main_arg1 : StableHlo.TRef sig ⟨S3200000, .i32⟩) (.of main_call1_v4 : StableHlo.TRef sig ⟨S3200000, .i32⟩) select : HloOp τ sig (Elt F))
    = StableHlo.ternary main_call1_v1 main_call1_v3 main_arg1 main_call1_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) :=
  rfl
theorem take1_op_8 : (StableHlo.TRef.unary main_call1_call0.v0 (.of main_call1_v5 : StableHlo.TRef sig ⟨S3200000x1, .i32⟩) (broadcastInDim S3200000x1 ![0] bcast_S3200000_S3200000x1_0) : HloOp τ sig (Elt F))
    = StableHlo.unary main_call1_v4 main_call1_v5 ((broadcastInDim S3200000x1 ![0] bcast_S3200000_S3200000x1_0) : (⟨S3200000, .i32⟩ : BufTy).Contents (Elt F) → (⟨S3200000x1, .i32⟩ : BufTy).Contents (Elt F)) :=
  rfl
theorem take1_op_9 : (StableHlo.TRef.nullary (.of main_call1_c_1 : StableHlo.TRef sig ⟨S1, .i32⟩) (constantI S1 32 99999#32) : HloOp τ sig (Elt F))
    = StableHlo.nullary main_call1_c_1 ((constantI S1 32 99999#32) : (⟨S1, .i32⟩ : BufTy).Contents (Elt F)) :=
  rfl
theorem take1_op_10 : (StableHlo.TRef.nullary (.of main_call1_c_2 : StableHlo.TRef sig ⟨S_, .i32⟩) (constantI S_ 32 0#32) : HloOp τ sig (Elt F))
    = StableHlo.nullary main_call1_c_2 ((constantI S_ 32 0#32) : (⟨S_, .i32⟩ : BufTy).Contents (Elt F)) :=
  rfl
theorem take1_op_11 : (StableHlo.TRef.unary (.of main_call1_c_2 : StableHlo.TRef sig ⟨S_, .i32⟩) (.of main_call1_v6 : StableHlo.TRef sig ⟨S3200000x1, .i32⟩) (broadcastInDim S3200000x1 ![] bcast_S_S3200000x1) : HloOp τ sig (Elt F))
    = StableHlo.unary main_call1_c_2 main_call1_v6 ((broadcastInDim S3200000x1 ![] bcast_S_S3200000x1) : (⟨S_, .i32⟩ : BufTy).Contents (Elt F) → (⟨S3200000x1, .i32⟩ : BufTy).Contents (Elt F)) :=
  rfl
theorem take1_op_12 : (StableHlo.TRef.binary (.of main_call1_v5 : StableHlo.TRef sig ⟨S3200000x1, .i32⟩) (.of main_call1_v6 : StableHlo.TRef sig ⟨S3200000x1, .i32⟩) (.of main_call1_v7 : StableHlo.TRef sig ⟨S3200000x1, .i1⟩) (cmpi .sge) : HloOp τ sig (Elt F))
    = StableHlo.binary main_call1_v5 main_call1_v6 main_call1_v7 ((cmpi .sge) : (⟨S3200000x1, .i32⟩ : BufTy).Contents (Elt F) → (⟨S3200000x1, .i32⟩ : BufTy).Contents (Elt F) → (⟨S3200000x1, .i1⟩ : BufTy).Contents (Elt F)) :=
  rfl
theorem take1_op_13 : (StableHlo.TRef.unary (.of main_call1_c_1 : StableHlo.TRef sig ⟨S1, .i32⟩) (.of main_call1_v8 : StableHlo.TRef sig ⟨S1x1, .i32⟩) (broadcastInDim S1x1 ![1] bcast_S1_S1x1_1) : HloOp τ sig (Elt F))
    = StableHlo.unary main_call1_c_1 main_call1_v8 ((broadcastInDim S1x1 ![1] bcast_S1_S1x1_1) : (⟨S1, .i32⟩ : BufTy).Contents (Elt F) → (⟨S1x1, .i32⟩ : BufTy).Contents (Elt F)) :=
  rfl
theorem take1_op_14 : (StableHlo.TRef.unary (.of main_call1_v8 : StableHlo.TRef sig ⟨S1x1, .i32⟩) (.of main_call1_v9 : StableHlo.TRef sig ⟨S3200000x1, .i32⟩) (broadcastInDim S3200000x1 ![0, 1] bcast_S1x1_S3200000x1_0_1) : HloOp τ sig (Elt F))
    = StableHlo.unary main_call1_v8 main_call1_v9 ((broadcastInDim S3200000x1 ![0, 1] bcast_S1x1_S3200000x1_0_1) : (⟨S1x1, .i32⟩ : BufTy).Contents (Elt F) → (⟨S3200000x1, .i32⟩ : BufTy).Contents (Elt F)) :=
  rfl
theorem take1_op_15 : (StableHlo.TRef.binary (.of main_call1_v5 : StableHlo.TRef sig ⟨S3200000x1, .i32⟩) (.of main_call1_v9 : StableHlo.TRef sig ⟨S3200000x1, .i32⟩) (.of main_call1_v10 : StableHlo.TRef sig ⟨S3200000x1, .i1⟩) (cmpi .sle) : HloOp τ sig (Elt F))
    = StableHlo.binary main_call1_v5 main_call1_v9 main_call1_v10 ((cmpi .sle) : (⟨S3200000x1, .i32⟩ : BufTy).Contents (Elt F) → (⟨S3200000x1, .i32⟩ : BufTy).Contents (Elt F) → (⟨S3200000x1, .i1⟩ : BufTy).Contents (Elt F)) :=
  rfl
theorem take1_op_16 : (StableHlo.TRef.binary (.of main_call1_v7 : StableHlo.TRef sig ⟨S3200000x1, .i1⟩) (.of main_call1_v10 : StableHlo.TRef sig ⟨S3200000x1, .i1⟩) (.of main_call1_v11 : StableHlo.TRef sig ⟨S3200000x1, .i1⟩) andi : HloOp τ sig (Elt F))
    = StableHlo.binary main_call1_v7 main_call1_v10 main_call1_v11 ((andi) : (⟨S3200000x1, .i1⟩ : BufTy).Contents (Elt F) → (⟨S3200000x1, .i1⟩ : BufTy).Contents (Elt F) → (⟨S3200000x1, .i1⟩ : BufTy).Contents (Elt F)) :=
  rfl
theorem take1_op_17 : (StableHlo.TRef.nullary (.of main_call1_c_3 : StableHlo.TRef sig ⟨S_, .i1⟩) (constantI S_ 1 1#1) : HloOp τ sig (Elt F))
    = StableHlo.nullary main_call1_c_3 ((constantI S_ 1 1#1) : (⟨S_, .i1⟩ : BufTy).Contents (Elt F)) :=
  rfl
theorem take1_op_18 : (StableHlo.TRef.binary (.of main_call1_v11 : StableHlo.TRef sig ⟨S3200000x1, .i1⟩) (.of main_call1_c_3 : StableHlo.TRef sig ⟨S_, .i1⟩) (.of main_call1_v12 : StableHlo.TRef sig ⟨S3200000, .i1⟩) (fun x v => Host.reduce IntOp.andi x v reducesTo_S3200000x1_S3200000_d1 h_S_) : HloOp τ sig (Elt F))
    = StableHlo.binary main_call1_v11 main_call1_c_3 main_call1_v12 ((fun x v => Host.reduce IntOp.andi x v reducesTo_S3200000x1_S3200000_d1 h_S_) : (⟨S3200000x1, .i1⟩ : BufTy).Contents (Elt F) → (⟨S_, .i1⟩ : BufTy).Contents (Elt F) → (⟨S3200000, .i1⟩ : BufTy).Contents (Elt F)) :=
  congrArg (fun f : (⟨S3200000x1, .i1⟩ : BufTy).Contents (Elt F) → (⟨S_, .i1⟩ : BufTy).Contents (Elt F) → (⟨S3200000, .i1⟩ : BufTy).Contents (Elt F) => StableHlo.binary main_call1_v11 main_call1_c_3 main_call1_v12 f)
    (funext fun u => funext fun v => by simp only [StableHlo.TRef.toBuf, StableHlo.TRef.ofBuf, cast_eq])
theorem take1_op_19 : (StableHlo.TRef.binary (.of main_v18 : StableHlo.TRef sig ⟨S100000x1, .f32⟩) (.of main_call1_v5 : StableHlo.TRef sig ⟨S3200000x1, .i32⟩) (.of main_call1_v13 : StableHlo.TRef sig ⟨S3200000x1, .f32⟩) (fun x i => Host.gather gather_S100000x1_S3200000x1_S3200000x1_1_0_n_n_0_1_11 x i) : HloOp τ sig (Elt F))
    = StableHlo.binary main_v18 main_call1_v5 main_call1_v13 ((fun x i => Host.gather gather_S100000x1_S3200000x1_S3200000x1_1_0_n_n_0_1_11 x i) : (⟨S100000x1, .f32⟩ : BufTy).Contents (Elt F) → (⟨S3200000x1, .i32⟩ : BufTy).Contents (Elt F) → (⟨S3200000x1, .f32⟩ : BufTy).Contents (Elt F)) :=
  rfl
theorem take1_op_20 : (StableHlo.TRef.unary (.of main_call1_v12 : StableHlo.TRef sig ⟨S3200000, .i1⟩) (.of main_call1_v14 : StableHlo.TRef sig ⟨S3200000x1, .i1⟩) (broadcastInDim S3200000x1 ![0] bcast_S3200000_S3200000x1_0) : HloOp τ sig (Elt F))
    = StableHlo.unary main_call1_v12 main_call1_v14 ((broadcastInDim S3200000x1 ![0] bcast_S3200000_S3200000x1_0) : (⟨S3200000, .i1⟩ : BufTy).Contents (Elt F) → (⟨S3200000x1, .i1⟩ : BufTy).Contents (Elt F)) :=
  rfl
theorem take1_op_21 : (StableHlo.TRef.nullary (.of main_call1_cst : StableHlo.TRef sig ⟨S_, .f32⟩) (constant S_ .f32 0x7FC00000#32) : HloOp τ sig (Elt F))
    = StableHlo.nullary main_call1_cst ((constant S_ .f32 0x7FC00000#32) : (⟨S_, .f32⟩ : BufTy).Contents (Elt F)) :=
  rfl
theorem take1_op_22 : (StableHlo.TRef.unary (.of main_call1_cst : StableHlo.TRef sig ⟨S_, .f32⟩) (.of main_call1_v15 : StableHlo.TRef sig ⟨S3200000x1, .f32⟩) (broadcastInDim S3200000x1 ![] bcast_S_S3200000x1) : HloOp τ sig (Elt F))
    = StableHlo.unary main_call1_cst main_call1_v15 ((broadcastInDim S3200000x1 ![] bcast_S_S3200000x1) : (⟨S_, .f32⟩ : BufTy).Contents (Elt F) → (⟨S3200000x1, .f32⟩ : BufTy).Contents (Elt F)) :=
  rfl
theorem take1_op_23 : (StableHlo.TRef.ternary (.of main_call1_v14 : StableHlo.TRef sig ⟨S3200000x1, .i1⟩) (.of main_call1_v13 : StableHlo.TRef sig ⟨S3200000x1, .f32⟩) (.of main_call1_v15 : StableHlo.TRef sig ⟨S3200000x1, .f32⟩) (.of main_v19 : StableHlo.TRef sig ⟨S3200000x1, .f32⟩) select : HloOp τ sig (Elt F))
    = StableHlo.ternary main_call1_v14 main_call1_v13 main_call1_v15 main_v19 ((select) : (⟨S3200000x1, .i1⟩ : BufTy).Contents (Elt F) → (⟨S3200000x1, .f32⟩ : BufTy).Contents (Elt F) → (⟨S3200000x1, .f32⟩ : BufTy).Contents (Elt F) → (⟨S3200000x1, .f32⟩ : BufTy).Contents (Elt F)) :=
  rfl

/-- The typed spelling and the plain one are one list. -/
theorem hostOps1_plain : (hostOps1 : List (HloOp τ sig (Elt F))) = takeOps8 :=
  congrArg₂ List.cons take8_op_1 (congrArg₂ List.cons take8_op_2 (congrArg₂ List.cons take8_op_3 (congrArg₂ List.cons take8_op_4 (congrArg₂ List.cons take8_op_5 (congrArg₂ List.cons take8_op_6 (congrArg₂ List.cons take8_op_7 (congrArg₂ List.cons take8_op_8 (congrArg₂ List.cons take8_op_9 (congrArg₂ List.cons take8_op_10 (congrArg₂ List.cons take8_op_11 (congrArg₂ List.cons take8_op_12 (congrArg₂ List.cons take8_op_13 (congrArg₂ List.cons take8_op_14 (congrArg₂ List.cons take8_op_15 (congrArg₂ List.cons take8_op_16 (congrArg₂ List.cons take8_op_17 (congrArg₂ List.cons take8_op_18 (congrArg₂ List.cons take8_op_19 (congrArg₂ List.cons take8_op_20 (congrArg₂ List.cons take8_op_21 (congrArg₂ List.cons take8_op_22 (congrArg₂ List.cons take8_op_23 (rfl)))))))))))))))))))))))

theorem hostOps2_plain : (hostOps2 : List (HloOp τ sig (Elt F))) = takeOps1 :=
  congrArg₂ List.cons take1_op_1 (congrArg₂ List.cons take1_op_2 (congrArg₂ List.cons take1_op_3 (congrArg₂ List.cons take1_op_4 (congrArg₂ List.cons take1_op_5 (congrArg₂ List.cons take1_op_6 (congrArg₂ List.cons take1_op_7 (congrArg₂ List.cons take1_op_8 (congrArg₂ List.cons take1_op_9 (congrArg₂ List.cons take1_op_10 (congrArg₂ List.cons take1_op_11 (congrArg₂ List.cons take1_op_12 (congrArg₂ List.cons take1_op_13 (congrArg₂ List.cons take1_op_14 (congrArg₂ List.cons take1_op_15 (congrArg₂ List.cons take1_op_16 (congrArg₂ List.cons take1_op_17 (congrArg₂ List.cons take1_op_18 (congrArg₂ List.cons take1_op_19 (congrArg₂ List.cons take1_op_20 (congrArg₂ List.cons take1_op_21 (congrArg₂ List.cons take1_op_22 (congrArg₂ List.cons take1_op_23 (rfl)))))))))))))))))))))))

end Cert.KernelIdeal.Gen

end
-- ==== Proof.KernelChain.lean ====
/-
  The kernel program's result array, read through its segment boundaries.

  Each launch replaces its output array by the row-wise map of its input arrays (the three region modules); each host
  stretch computes its buffers from the ones before.  Walking the boundaries from the launch memory gives the result
  array as the composition `Chain.result` of the arguments.
-/
import proofs.«404905_j37572373905750_3_alg».proof.Proof.KernelRun
import proofs.«404905_j37572373905750_3_alg».proof.Proof.RegionA
import proofs.«404905_j37572373905750_3_alg».proof.Proof.RegionB
import proofs.«404905_j37572373905750_3_alg».proof.Proof.RegionC
import proofs.«404905_j37572373905750_3_alg».proof.Proof.ChainDefs
import proofs.«404905_j37572373905750_3_alg».proof.Proof.TakeOps
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Layers

/-- A buffer no operation of a host stretch writes keeps its contents through the stretch. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

/-! ## Up to the first launch -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) from by
    host_keeps hostOps0).trans rfl
theorem W1_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) from by
    host_keeps hostOps0).trans rfl
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) from by
    host_keeps hostOps0).trans rfl
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) from by
    host_keeps hostOps0).trans rfl
theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) from by
    host_keeps hostOps0).trans rfl
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) from by
    host_keeps hostOps0).trans rfl
theorem W1_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) from by
    host_keeps hostOps0).trans rfl

theorem W1_v7 (c : Dev nD) : W1 m ρ c (Proc.devRef .tc main_v7) = degVec (m ((c : Thread nD τ).loc main_arg1)) := by
  show StableHlo.after hostOps0 (W0 m ρ c) (Proc.devRef .tc main_v7) = _
  after_results
  rfl
theorem W1_v8 (c : Dev nD) : W1 m ρ c (Proc.devRef .tc main_v8) = degVec (m ((c : Thread nD τ).loc main_arg2)) := by
  show StableHlo.after hostOps0 (W0 m ρ c) (Proc.devRef .tc main_v8) = _
  after_results
  rfl
theorem W1_v9 (c : Dev nD) : W1 m ρ c (Proc.devRef .tc main_v9) = degCol (m ((c : Thread nD τ).loc main_arg1)) := by
  show StableHlo.after hostOps0 (W0 m ρ c) (Proc.devRef .tc main_v9) = _
  after_results
  rfl

/-! ## The first launch -/

theorem W2_v10 (c : Dev nD) : W2 m ρ c (Proc.devRef .tc main_v10)
    = Cert.Spec.layer1 (m ((c : Thread nD τ).loc main_arg0)) (degCol (m ((c : Thread nD τ).loc main_arg1))) (m ((c : Thread nD τ).loc main_arg3)) := by
  refine (W2_arr m ρ c 3).trans ((region0_value (V1 m ρ) c).trans ?_)
  show Cert.Spec.layer1 (W1 m ρ c (Proc.devRef .tc main_arg0)) (W1 m ρ c (Proc.devRef .tc main_v9)) (W1 m ρ c (Proc.devRef .tc main_arg3)) = _
  rw [W1_arg0, W1_v9, W1_arg3]

theorem W2_arg1 (c : Dev nD) : W2 m ρ c (Proc.devRef .tc main_arg1) = W1 m ρ c (Proc.devRef .tc main_arg1) :=
  W2_of_ne m ρ c main_arg1 (by decide)
theorem W2_arg2 (c : Dev nD) : W2 m ρ c (Proc.devRef .tc main_arg2) = W1 m ρ c (Proc.devRef .tc main_arg2) :=
  W2_of_ne m ρ c main_arg2 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_v7 (c : Dev nD) : W2 m ρ c (Proc.devRef .tc main_v7) = W1 m ρ c (Proc.devRef .tc main_v7) :=
  W2_of_ne m ρ c main_v7 (by decide)
theorem W2_v8 (c : Dev nD) : W2 m ρ c (Proc.devRef .tc main_v8) = W1 m ρ c (Proc.devRef .tc main_v8) :=
  W2_of_ne m ρ c main_v8 (by decide)

/-! ## Between the first and the second launch -/

set_option maxHeartbeats 4000000 in
/-- The gathered rows after the first gather's stretch, read off its plain spelling. -/
theorem W3_v11 (c : Dev nD) : W3 m ρ c (Proc.devRef .tc main_v11)
    = take8 (W2 m ρ c (Proc.devRef .tc main_v10)) (W2 m ρ c (Proc.devRef .tc main_arg1)) := by
  dsimp only [W3]
  rw [hostOps1_plain]
  after_results
  rfl
theorem W3_arg2 (c : Dev nD) : W3 m ρ c (Proc.devRef .tc main_arg2) = W2 m ρ c (Proc.devRef .tc main_arg2) :=
  show StableHlo.after hostOps1 (W2 m ρ c) (Proc.devRef .tc main_arg2) = W2 m ρ c (Proc.devRef .tc main_arg2) from by
    host_keeps hostOps1
set_option maxHeartbeats 4000000 in
theorem W4_v14 (c : Dev nD) : W4 m ρ c (Proc.devRef .tc main_v14)
    = seg8 (W2 m ρ c (Proc.devRef .tc main_arg2)) (take8 (W2 m ρ c (Proc.devRef .tc main_v10)) (W2 m ρ c (Proc.devRef .tc main_arg1))) := by
  have h : W4 m ρ c (Proc.devRef .tc main_v14)
      = seg8 (W3 m ρ c (Proc.devRef .tc main_arg2)) (W3 m ρ c (Proc.devRef .tc main_v11)) := by
    dsimp only [W4]
    after_results
    rfl
  rw [h, W3_arg2, W3_v11]
set_option maxHeartbeats 4000000 in
theorem W4_v15 (c : Dev nD) : W4 m ρ c (Proc.devRef .tc main_v15)
    = shapeCast S100000x1 (W2 m ρ c (Proc.devRef .tc main_v8)) shapeCasts_S100000_S100000x1 := by
  dsimp only [W4, W3]
  after_results
  rfl
set_option maxHeartbeats 4000000 in
theorem W4_v16 (c : Dev nD) : W4 m ρ c (Proc.devRef .tc main_v16)
    = shapeCast S100000x1 (W2 m ρ c (Proc.devRef .tc main_v7)) shapeCasts_S100000_S100000x1 := by
  dsimp only [W4, W3]
  after_results
  rfl
set_option maxHeartbeats 4000000 in
theorem W4_v17 (c : Dev nD) : W4 m ρ c (Proc.devRef .tc main_v17)
    = shapeCast S1x8 (W2 m ρ c (Proc.devRef .tc main_arg4)) shapeCasts_S8_S1x8 := by
  dsimp only [W4, W3]
  after_results
  rfl
theorem W4_arg1 (c : Dev nD) : W4 m ρ c (Proc.devRef .tc main_arg1) = W2 m ρ c (Proc.devRef .tc main_arg1) :=
  (show StableHlo.after hostOps1_1 (W3 m ρ c) (Proc.devRef .tc main_arg1) = W3 m ρ c (Proc.devRef .tc main_arg1) from by
    host_keeps hostOps1_1).trans
  (show StableHlo.after hostOps1 (W2 m ρ c) (Proc.devRef .tc main_arg1) = W2 m ρ c (Proc.devRef .tc main_arg1) from by
    host_keeps hostOps1)
theorem W4_arg2 (c : Dev nD) : W4 m ρ c (Proc.devRef .tc main_arg2) = W2 m ρ c (Proc.devRef .tc main_arg2) :=
  (show StableHlo.after hostOps1_1 (W3 m ρ c) (Proc.devRef .tc main_arg2) = W3 m ρ c (Proc.devRef .tc main_arg2) from by
    host_keeps hostOps1_1).trans
  (show StableHlo.after hostOps1 (W2 m ρ c) (Proc.devRef .tc main_arg2) = W2 m ρ c (Proc.devRef .tc main_arg2) from by
    host_keeps hostOps1)
theorem W4_arg5 (c : Dev nD) : W4 m ρ c (Proc.devRef .tc main_arg5) = W2 m ρ c (Proc.devRef .tc main_arg5) :=
  (show StableHlo.after hostOps1_1 (W3 m ρ c) (Proc.devRef .tc main_arg5) = W3 m ρ c (Proc.devRef .tc main_arg5) from by
    host_keeps hostOps1_1).trans
  (show StableHlo.after hostOps1 (W2 m ρ c) (Proc.devRef .tc main_arg5) = W2 m ρ c (Proc.devRef .tc main_arg5) from by
    host_keeps hostOps1)
theorem W4_arg6 (c : Dev nD) : W4 m ρ c (Proc.devRef .tc main_arg6) = W2 m ρ c (Proc.devRef .tc main_arg6) :=
  (show StableHlo.after hostOps1_1 (W3 m ρ c) (Proc.devRef .tc main_arg6) = W3 m ρ c (Proc.devRef .tc main_arg6) from by
    host_keeps hostOps1_1).trans
  (show StableHlo.after hostOps1 (W2 m ρ c) (Proc.devRef .tc main_arg6) = W2 m ρ c (Proc.devRef .tc main_arg6) from by
    host_keeps hostOps1)
theorem W4_v8 (c : Dev nD) : W4 m ρ c (Proc.devRef .tc main_v8) = W2 m ρ c (Proc.devRef .tc main_v8) :=
  (show StableHlo.after hostOps1_1 (W3 m ρ c) (Proc.devRef .tc main_v8) = W3 m ρ c (Proc.devRef .tc main_v8) from by
    host_keeps hostOps1_1).trans
  (show StableHlo.after hostOps1 (W2 m ρ c) (Proc.devRef .tc main_v8) = W2 m ρ c (Proc.devRef .tc main_v8) from by
    host_keeps hostOps1)

/-! ## The second launch -/

theorem W5_v18 (c : Dev nD) : W5 m ρ c (Proc.devRef .tc main_v18)
    = Cert.Spec.layer2 (W4 m ρ c (Proc.devRef .tc main_v14)) (W4 m ρ c (Proc.devRef .tc main_v15))
        (W4 m ρ c (Proc.devRef .tc main_v16)) (W4 m ρ c (Proc.devRef .tc main_v17)) (W4 m ρ c (Proc.devRef .tc main_arg5)) :=
  (W5_arr m ρ c 5).trans (region1_value (V4 m ρ) c)

theorem W5_arg1 (c : Dev nD) : W5 m ρ c (Proc.devRef .tc main_arg1) = W4 m ρ c (Proc.devRef .tc main_arg1) :=
  W5_of_ne m ρ c main_arg1 (by decide)
theorem W5_arg2 (c : Dev nD) : W5 m ρ c (Proc.devRef .tc main_arg2) = W4 m ρ c (Proc.devRef .tc main_arg2) :=
  W5_of_ne m ρ c main_arg2 (by decide)
theorem W5_arg6 (c : Dev nD) : W5 m ρ c (Proc.devRef .tc main_arg6) = W4 m ρ c (Proc.devRef .tc main_arg6) :=
  W5_of_ne m ρ c main_arg6 (by decide)
theorem W5_v8 (c : Dev nD) : W5 m ρ c (Proc.devRef .tc main_v8) = W4 m ρ c (Proc.devRef .tc main_v8) :=
  W5_of_ne m ρ c main_v8 (by decide)

/-! ## Between the second and the third launch -/

set_option maxHeartbeats 4000000 in
/-- The gathered rows after the second gather's stretch, read off its plain spelling. -/
theorem W6_v19 (c : Dev nD) : W6 m ρ c (Proc.devRef .tc main_v19)
    = take1 (W5 m ρ c (Proc.devRef .tc main_v18)) (W5 m ρ c (Proc.devRef .tc main_arg1)) := by
  dsimp only [W6]
  rw [hostOps2_plain]
  after_results
  rfl
theorem W6_arg2 (c : Dev nD) : W6 m ρ c (Proc.devRef .tc main_arg2) = W5 m ρ c (Proc.devRef .tc main_arg2) :=
  show StableHlo.after hostOps2 (W5 m ρ c) (Proc.devRef .tc main_arg2) = W5 m ρ c (Proc.devRef .tc main_arg2) from by
    host_keeps hostOps2
set_option maxHeartbeats 4000000 in
theorem W7_v22 (c : Dev nD) : W7 m ρ c (Proc.devRef .tc main_v22)
    = seg1 (W5 m ρ c (Proc.devRef .tc main_arg2)) (take1 (W5 m ρ c (Proc.devRef .tc main_v18)) (W5 m ρ c (Proc.devRef .tc main_arg1))) := by
  have h : W7 m ρ c (Proc.devRef .tc main_v22)
      = seg1 (W6 m ρ c (Proc.devRef .tc main_arg2)) (W6 m ρ c (Proc.devRef .tc main_v19)) := by
    dsimp only [W7]
    after_results
    rfl
  rw [h, W6_arg2, W6_v19]
set_option maxHeartbeats 4000000 in
theorem W7_v23 (c : Dev nD) : W7 m ρ c (Proc.devRef .tc main_v23)
    = shapeCast S100000x1 (W5 m ρ c (Proc.devRef .tc main_v8)) shapeCasts_S100000_S100000x1 := by
  dsimp only [W7, W6]
  after_results
  rfl
set_option maxHeartbeats 4000000 in
theorem W7_v24 (c : Dev nD) : W7 m ρ c (Proc.devRef .tc main_v24)
    = shapeCast S1x1 (W5 m ρ c (Proc.devRef .tc main_arg6)) shapeCasts_S1_S1x1 := by
  dsimp only [W7, W6]
  after_results
  rfl

/-! ## The third launch, and the whole -/

theorem W8_v25 (c : Dev nD) : W8 m ρ c (Proc.devRef .tc main_v25)
    = Cert.Spec.layer3 (W7 m ρ c (Proc.devRef .tc main_v22)) (W7 m ρ c (Proc.devRef .tc main_v23)) (W7 m ρ c (Proc.devRef .tc main_v24)) :=
  (W8_arr m ρ c 3).trans (region2_value (V7 m ρ) c)

/-- The result array at the last segment boundary is `result` of the launch memory's arguments. -/
theorem W8_result (c : Dev nD) : W8 m ρ c (Proc.devRef .tc main_v25)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W8_v25, W7_v22, W7_v23, W7_v24, W5_v18, W5_arg1, W5_arg2, W5_arg6, W5_v8, W4_v14, W4_v15, W4_v16, W4_v17,
    W4_arg1, W4_arg2, W4_arg5, W4_arg6, W4_v8, W2_v10, W2_arg1, W2_arg2, W2_arg4, W2_arg5, W2_arg6, W2_v7, W2_v8,
    W1_arg1, W1_arg2, W1_arg4, W1_arg5, W1_arg6, W1_v7, W1_v8]
  rfl

end Cert.KernelIdeal.Chain

end
-- ==== Proof.RefLayers.lean ====
import proofs.«404905_j37572373905750_3_alg».proof.Proof.Gen.ReferenceIdeal
import proofs.«404905_j37572373905750_3_alg».proof.Proof.Gen.ReferenceIdeal.Read
import proofs.«404905_j37572373905750_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Analysis.SpecialFunctions.Pow.Real
import Mathlib.Analysis.SpecialFunctions.Sqrt

noncomputable section

namespace Cert.ReferenceIdeal.Layers

open Idealize.ShloMosaic Idealize.ShloMosaic.ValueIdx
open Cert.ReferenceIdeal Cert.ReferenceIdeal.Gen

/-- The reference's normalisation of a degree vector: max(1, d) to the power -1/2, as its host operations spell it. -/
abbrev nrmVec (d : FVec Ideal S100000 .f32) : FVec Ideal S100000 .f32 :=
  Host.powf (maximumf (broadcastInDim S100000 ![] bcast_S_S100000 (id (constant (F := Ideal) S_ .f32 0x3F800000#32))) d)
    (broadcastInDim S100000 ![] bcast_S_S100000 (constant (F := Ideal) S_ .f32 0xBF000000#32))

/-- A degree vector holds natural numbers. -/
def IsCount (d : FVec Ideal S100000 .f32) : Prop := ∀ n, ∃ k : ℕ, d n = (k : EReal)

/-! ### The scalar law: max(1, k) to the power -1/2 is 1/sqrt(max(k, 1)) -/

/-- The word 0xBF000000 is minus one half. -/
theorem neg_half_f32 : Ideal.ofBits .f32 0xBF000000#32 = (((-(1/2) : ℝ)) : EReal) := by
  simp [Ideal.ofBits, Ideal.ieee, -EReal.coe_mul, -EReal.coe_neg]; norm_num

/-- The maximum of two reals taken among the extended reals is the real maximum. -/
theorem coe_max (a b : ℝ) : max (a : EReal) (b : EReal) = ((max a b : ℝ) : EReal) :=
  (EReal.coe_strictMono.monotone.map_max).symm

/-- For a natural number k the base max(1, k) is a real that is at least 1; there the power -1/2 is the reciprocal of the
    square root, which is what the normalisation 1/sqrt(max(k, 1)) is. -/
theorem pow_max_nat (k : ℕ) :
    Ideal.pow (max (1 : EReal) (k : EReal)) (((-(1/2) : ℝ)) : EReal) = Cert.Spec.nrm (k : EReal) := by
  unfold Cert.Spec.nrm
  have h : max (k : EReal) (1 : EReal) = ((max (k : ℝ) 1 : ℝ) : EReal) := by
    rw [← coe_max]; rfl
  rw [max_comm, h]
  have hr : (1 : ℝ) ≤ max (k : ℝ) 1 := le_max_right _ _
  generalize max (k : ℝ) 1 = r at hr
  have hpos : 0 < r := lt_of_lt_of_le one_pos hr
  rw [Ideal.pow_coe_coe, Ideal.rsqrt_coe, if_neg (not_lt.mpr hpos.le), if_neg hpos.ne']
  congr 1
  show r ^ (-(1/2) : ℝ) = _
  rw [Real.rpow_neg hpos.le, Real.sqrt_eq_rpow]

/-- The reference's normalisation vector at n is the normalisation of the degree at n. -/
theorem nrmVec_apply (d : FVec Ideal S100000 .f32) (hd : IsCount d) (n : Fin 100000) :
    nrmVec d (ix1 n) = Cert.Spec.nrm (d (ix1 n)) := by
  obtain ⟨k, hk⟩ := hd (ix1 n)
  show Ideal.pow (max (broadcastInDim S100000 ![] bcast_S_S100000 (id (constant (F := Ideal) S_ .f32 0x3F800000#32)) (ix1 n)) (d (ix1 n)))
      (broadcastInDim S100000 ![] bcast_S_S100000 (constant (F := Ideal) S_ .f32 0xBF000000#32) (ix1 n)) = _
  rw [broadcastInDim_scalar_apply, broadcastInDim_scalar_apply]
  show Ideal.pow (max (Ideal.ofBits .f32 0x3F800000#32) (d (ix1 n))) (Ideal.ofBits .f32 0xBF000000#32) = _
  rw [Ideal.ofBits_one_f32, neg_half_f32, hk, pow_max_nat]

/-! ### The layout operations read at an index -/

/-- A vector laid as a column [100000, 1] reads, at (p, 0), the vector at p. -/
theorem col_apply (v : FVec Ideal S100000 .f32) (p : Fin 100000) (z : Fin 1) :
    broadcastInDim S100000x1 ![0] bcast_S100000_S100000x1_0 v (ix2 p z) = v (ix1 p) :=
  broadcastInDim_apply _ bcast_S100000_S100000x1_0 v (ix2 p z) (ix1 p) (fun a => match a with
    | ⟨0, _⟩ => by show p.val = if (100000 : Nat) = 1 then 0 else p.val; rw [if_neg (by decide)])

/-- A column [100000, 1] laid along the 128 columns reads, at (p, q), the column at (p, 0). -/
theorem along128_apply (v : FVec Ideal S100000x1 .f32) (p : Fin 100000) (q : Fin 128) :
    broadcastInDim S100000x128 ![0, 1] bcast_S100000x1_S100000x128_0_1 v (ix2 p q) = v (ix2 p 0) :=
  broadcastInDim_apply _ bcast_S100000x1_S100000x128_0_1 v (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A column [100000, 1] laid along the 8 columns reads, at (p, q), the column at (p, 0). -/
theorem along8_apply (v : FVec Ideal S100000x1 .f32) (p : Fin 100000) (q : Fin 8) :
    broadcastInDim S100000x8 ![0, 1] bcast_S100000x1_S100000x8_0_1 v (ix2 p q) = v (ix2 p 0) :=
  broadcastInDim_apply _ bcast_S100000x1_S100000x8_0_1 v (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector of 8 laid as a row [1, 8] reads, at (0, q), the vector at q. -/
theorem row8_apply (b : FVec Ideal S8 .f32) (z : Fin 1) (q : Fin 8) :
    broadcastInDim S1x8 ![1] bcast_S8_S1x8_1 b (ix2 z q) = b (ix1 q) :=
  broadcastInDim_apply _ bcast_S8_S1x8_1 b (ix2 z q) (ix1 q) (fun a => match a with
    | ⟨0, _⟩ => by show q.val = if (8 : Nat) = 1 then 0 else q.val; rw [if_neg (by decide)])

/-- A row [1, 8] laid down the 100000 rows reads, at (p, q), the row at (0, q). -/
theorem down8_apply (v : FVec Ideal S1x8 .f32) (p : Fin 100000) (q : Fin 8) :
    broadcastInDim S100000x8 ![0, 1] bcast_S1x8_S100000x8_0_1 v (ix2 p q) = v (ix2 0 q) :=
  broadcastInDim_apply _ bcast_S1x8_S100000x8_0_1 v (ix2 p q) (ix2 0 q) (fun a => match a with
    | ⟨0, _⟩ => by show 0 = if (1 : Nat) = 1 then 0 else p.val; rw [if_pos rfl]
    | ⟨1, _⟩ => by show q.val = if (8 : Nat) = 1 then 0 else q.val; rw [if_neg (by decide)])

/-- A vector of 1 laid as [1, 1] reads its one element. -/
theorem row1_apply (b : FVec Ideal S1 .f32) (z w : Fin 1) :
    broadcastInDim S1x1 ![1] bcast_S1_S1x1_1 b (ix2 z w) = b (ix1 0) :=
  broadcastInDim_apply _ bcast_S1_S1x1_1 b (ix2 z w) (ix1 0) (fun a => match a with
    | ⟨0, _⟩ => by show 0 = if (1 : Nat) = 1 then 0 else w.val; rw [if_pos rfl])

/-- A [1, 1] array laid down the 100000 rows reads its one element. -/
theorem down1_apply (v : FVec Ideal S1x1 .f32) (p : Fin 100000) (w : Fin 1) :
    broadcastInDim S100000x1 ![0, 1] bcast_S1x1_S100000x1_0_1 v (ix2 p w) = v (ix2 0 0) :=
  broadcastInDim_apply _ bcast_S1x1_S100000x1_0_1 v (ix2 p w) (ix2 0 0) (fun a => match a with
    | ⟨0, _⟩ => by show 0 = if (1 : Nat) = 1 then 0 else p.val; rw [if_pos rfl]
    | ⟨1, _⟩ => by show 0 = if (1 : Nat) = 1 then 0 else w.val; rw [if_pos rfl])

/-! ### The two contractions read at an index -/

open Cert.ReferenceIdeal.Read in
/-- The 128-term contraction at (p, q): the sum over k of the left operand at (p, k) times the right at (k, q). -/
theorem dot128_apply (y : FVec Ideal S100000x128 .f32) (W : FVec Ideal S128x8 .f32) (p : Fin 100000) (q : Fin 8) :
    Host.dotGeneral dot_S100000x128_S128x8_S100000x8_1_0_0_1_n_n none y W (ix2 p q) = ∑ k : Fin 128, y (ix2 p k) * W (ix2 k q) := by
  simp only [Host.dotGeneral]
  rw [Ideal.dotGeneral_apply, ← Equiv.sum_comp (contrEquiv1 dot_S100000x128_S128x8_S100000x8_1_0_0_1_n_n 128 rfl rfl).symm]
  refine Finset.sum_congr rfl fun k _ => ?_
  have hk := contrEquiv1_symm_val dot_S100000x128_S128x8_S100000x8_1_0_0_1_n_n 128 rfl rfl k
  have el : dot_S100000x128_S128x8_S100000x8_1_0_0_1_n_n.lhsIdx (ix2 p q) ((contrEquiv1 dot_S100000x128_S128x8_S100000x8_1_0_0_1_n_n 128 rfl rfl).symm k) = ix2 p k := funext fun a => Fin.ext (by
    match a with
    | ⟨0, _⟩ => exact lhs_main_v16_0 _ _
    | ⟨1, _⟩ => exact (lhs_main_v16_1 _ _).trans hk)
  have er : dot_S100000x128_S128x8_S100000x8_1_0_0_1_n_n.rhsIdx (ix2 p q) ((contrEquiv1 dot_S100000x128_S128x8_S100000x8_1_0_0_1_n_n 128 rfl rfl).symm k) = ix2 k q := funext fun a => Fin.ext (by
    match a with
    | ⟨0, _⟩ => exact (rhs_main_v16_0 _ _).trans hk
    | ⟨1, _⟩ => exact rhs_main_v16_1 _ _)
  rw [el, er]

open Cert.ReferenceIdeal.Read in
/-- The 8-term contraction at (p, q): the sum over k of the left operand at (p, k) times the right at (k, q). -/
theorem dot8_apply (y : FVec Ideal S100000x8 .f32) (W : FVec Ideal S8x1 .f32) (p : Fin 100000) (q : Fin 1) :
    Host.dotGeneral dot_S100000x8_S8x1_S100000x1_1_0_0_1_n_n none y W (ix2 p q) = ∑ k : Fin 8, y (ix2 p k) * W (ix2 k q) := by
  simp only [Host.dotGeneral]
  rw [Ideal.dotGeneral_apply, ← Equiv.sum_comp (contrEquiv1 dot_S100000x8_S8x1_S100000x1_1_0_0_1_n_n 8 rfl rfl).symm]
  refine Finset.sum_congr rfl fun k _ => ?_
  have hk := contrEquiv1_symm_val dot_S100000x8_S8x1_S100000x1_1_0_0_1_n_n 8 rfl rfl k
  have el : dot_S100000x8_S8x1_S100000x1_1_0_0_1_n_n.lhsIdx (ix2 p q) ((contrEquiv1 dot_S100000x8_S8x1_S100000x1_1_0_0_1_n_n 8 rfl rfl).symm k) = ix2 p k := funext fun a => Fin.ext (by
    match a with
    | ⟨0, _⟩ => exact lhs_main_v50_0 _ _
    | ⟨1, _⟩ => exact (lhs_main_v50_1 _ _).trans hk)
  have er : dot_S100000x8_S8x1_S100000x1_1_0_0_1_n_n.rhsIdx (ix2 p q) ((contrEquiv1 dot_S100000x8_S8x1_S100000x1_1_0_0_1_n_n 8 rfl rfl).symm k) = ix2 k q := funext fun a => Fin.ext (by
    match a with
    | ⟨0, _⟩ => exact (rhs_main_v50_0 _ _).trans hk
    | ⟨1, _⟩ => exact rhs_main_v50_1 _ _)
  rw [el, er]

/-! ### The three layers -/

theorem ref_layer1 (x : FVec Ideal S100000x128 .f32) (W : FVec Ideal S128x8 .f32) (d : FVec Ideal S100000 .f32) (hd : IsCount d) :
    Host.dotGeneral dot_S100000x128_S128x8_S100000x8_1_0_0_1_n_n none
      (mulf x (broadcastInDim S100000x128 ![0, 1] bcast_S100000x1_S100000x128_0_1
        (broadcastInDim S100000x1 ![0] bcast_S100000_S100000x1_0 (nrmVec d)))) W
    = Cert.Spec.layer1 x (fun i => d (ix1 (i 0))) W := by
  funext i
  obtain ⟨p, q, rfl⟩ : ∃ (p : Fin 100000) (q : Fin 8), i = ix2 p q := ⟨i 0, i 1, eq_ix2 i⟩
  rw [dot128_apply]
  show _ = ∑ k : Fin 128, (x (ix2 p k) * Cert.Spec.nrm (d (ix1 p))) * W (ix2 k q)
  refine Finset.sum_congr rfl fun k _ => ?_
  rw [mulf_apply, along128_apply, col_apply, nrmVec_apply d hd]

theorem ref_layer2 (agg : FVec Ideal S100000x8 .f32) (din dout : FVec Ideal S100000 .f32) (hdi : IsCount din) (hdo : IsCount dout)
    (b : FVec Ideal S8 .f32) (W : FVec Ideal S8x1 .f32) :
    Host.dotGeneral dot_S100000x8_S8x1_S100000x1_1_0_0_1_n_n none
      (mulf (maximumf (addf (mulf agg (broadcastInDim S100000x8 ![0, 1] bcast_S100000x1_S100000x8_0_1
                (broadcastInDim S100000x1 ![0] bcast_S100000_S100000x1_0 (nrmVec din))))
              (broadcastInDim S100000x8 ![0, 1] bcast_S1x8_S100000x8_0_1 (broadcastInDim S1x8 ![1] bcast_S8_S1x8_1 b)))
            (broadcastInDim S100000x8 ![] bcast_S_S100000x8 (constant (F := Ideal) S_ .f32 0x00000000#32)))
          (broadcastInDim S100000x8 ![0, 1] bcast_S100000x1_S100000x8_0_1
            (broadcastInDim S100000x1 ![0] bcast_S100000_S100000x1_0 (nrmVec dout)))) W
    = Cert.Spec.layer2 agg (fun i => din (ix1 (i 0))) (fun i => dout (ix1 (i 0))) (fun i => b (ix1 (i 1))) W := by
  funext i
  obtain ⟨p, q, rfl⟩ : ∃ (p : Fin 100000) (q : Fin 1), i = ix2 p q := ⟨i 0, i 1, eq_ix2 i⟩
  rw [dot8_apply]
  show _ = ∑ k : Fin 8,
    (max (agg (ix2 p k) * Cert.Spec.nrm (din (ix1 p)) + b (ix1 k)) 0 * Cert.Spec.nrm (dout (ix1 p))) * W (ix2 k q)
  refine Finset.sum_congr rfl fun k _ => ?_
  rw [mulf_apply, maximumf_apply, addf_apply, mulf_apply, along8_apply, col_apply, nrmVec_apply din hdi,
    down8_apply, row8_apply, broadcastInDim_scalar_apply, constant_apply, Ideal.ofBits_zero_f32,
    along8_apply, col_apply, nrmVec_apply dout hdo]

theorem ref_layer3 (agg : FVec Ideal S100000x1 .f32) (din : FVec Ideal S100000 .f32) (hdi : IsCount din) (b : FVec Ideal S1 .f32) :
    addf (mulf agg (broadcastInDim S100000x1 ![0] bcast_S100000_S100000x1_0 (nrmVec din)))
      (broadcastInDim S100000x1 ![0, 1] bcast_S1x1_S100000x1_0_1 (broadcastInDim S1x1 ![1] bcast_S1_S1x1_1 b))
    = Cert.Spec.layer3 agg (fun i => din (ix1 (i 0))) (fun i => b (ix1 (i 1))) := by
  funext i
  obtain ⟨p, q, rfl⟩ : ∃ (p : Fin 100000) (q : Fin 1), i = ix2 p q := ⟨i 0, i 1, eq_ix2 i⟩
  show _ = agg (ix2 p q) * Cert.Spec.nrm (din (ix1 p)) + b (ix1 0)
  rw [addf_apply, mulf_apply, col_apply, nrmVec_apply din hdi, down1_apply, row1_apply]

end Cert.ReferenceIdeal.Layers

end
-- ==== Proof.LibScatterSum.lean ====
/-
  A scatter whose body adds, read at one element.

  `Host.scatter d f x idx upd` is the left fold, over the update positions in row-major order, of "replace the
  element the update lands on by `f` of it and the update".  When `f` is the addition of a commutative monoid
  the order does not matter: the element at `i` ends as `x i` plus the sum of the updates that land on `i`
  (`ScatterDims.resultIdx?`), an update that lands outside contributing nothing.

  Two consequences for 32-bit words: the sum of ones scattered into zeros is the NUMBER of updates that land on
  the element, and as long as there are fewer than 2³¹ updates that number is what the word reads signed.
-/
import Idealize.ShloMosaic.PureOps.ShapeOps
import Idealize.ShloMosaic.Lib.StableHlo.Predicate
import Mathlib.Algebra.BigOperators.Fin
import Mathlib.Data.BitVec

namespace Idealize.ShloMosaic

/-- The scatter of an ADDITIVE body, at one element: the operand's element plus the sum of the updates whose
    result index is that element. -/
theorem Host.scatter_add_apply {M : Type} [AddCommMonoid M] {s si u : Shape} {w : Nat} (d : ScatterDims s si u)
    (x : s.Idx → M) (idx : IVec si w) (upd : u.Idx → M) (i : s.Idx) :
    Host.scatter d (fun a b => a + b) x idx upd i
      = x i + ∑ j : u.Idx, if d.resultIdx? j idx = some i then upd j else 0 := by
  have key : ∀ (l : List (Fin u.numel)) (r : s.Idx → M),
      (l.foldl (fun r n =>
          match d.resultIdx? (u.rowMajor.symm n) idx with
          | some i0 => fun i' => if i' = i0 then (fun a b => a + b) (r i0) (upd (u.rowMajor.symm n)) else r i'
          | none => r) r) i
        = r i + (l.map fun n => if d.resultIdx? (u.rowMajor.symm n) idx = some i then upd (u.rowMajor.symm n) else 0).sum := by
    intro l
    induction l with
    | nil => intro r; simp
    | cons n l ih =>
      intro r
      rw [List.foldl_cons, ih, List.map_cons, List.sum_cons, ← add_assoc]
      congr 1
      cases h : d.resultIdx? (u.rowMajor.symm n) idx with
      | none => simp
      | some i0 =>
        by_cases hi : i = i0
        · subst hi; simp
        · have hi' : ¬ i0 = i := fun e => hi e.symm
          simp [hi, hi']
  refine (key (List.finRange u.numel) x).trans ?_
  rw [← Fin.sum_univ_def]
  congr 1
  exact Equiv.sum_comp u.rowMajor.symm (fun j => if d.resultIdx? j idx = some i then upd j else 0)

/-- Ones scattered by word addition into zeros: the element at `i` is the number of updates landing on `i`, as a word. -/
theorem Host.scatter_addi_ones {s si u : Shape} {w : Nat} (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  have h : Host.scatter d IntOp.addi (fun _ => 0#32) idx (fun _ => 1#32) i
      = 0#32 + ∑ j : u.Idx, if d.resultIdx? j idx = some i then 1#32 else 0 :=
    Host.scatter_add_apply (M := BitVec 32) d (fun _ => 0#32) idx (fun _ => 1#32) i
  rw [h, ← Finset.sum_filter, Finset.sum_const, BitVec.zero_add]
  apply BitVec.eq_of_toNat_eq
  induction (Finset.univ.filter fun j : u.Idx => d.resultIdx? j idx = some i).card with
  | zero => simp
  | succ n ih => rw [succ_nsmul, BitVec.toNat_add, ih]; simp [BitVec.toNat_ofNat, Nat.add_mod]

/-- With fewer than 2³¹ updates the count does not wrap: read signed, the word IS the number of updates landing on `i`. -/
theorem Host.scatter_addi_ones_toInt {s si u : Shape} {w : Nat} (d : ScatterDims s si u) (idx : IVec si w) (i : s.Idx)
    (hu : u.numel < 2 ^ 31) :
    (Host.scatter d IntOp.addi (fun _ => 0#32) idx (fun _ => 1#32) i).toInt
      = ((Finset.univ.filter fun j : u.Idx => d.resultIdx? j idx = some i).card : ℤ) := by
  rw [Host.scatter_addi_ones]
  refine StableHlo.Predicate.toInt_ofNat_small _ (lt_of_le_of_lt ?_ hu)
  calc (Finset.univ.filter fun j : u.Idx => d.resultIdx? j idx = some i).card
      ≤ (Finset.univ : Finset u.Idx).card := Finset.card_filter_le _ _
    _ = u.numel := by rw [Finset.card_univ, Fintype.card_congr u.rowMajor, Fintype.card_fin]

end Idealize.ShloMosaic
-- ==== Proof.HostFacts.lean ====
/-
  Two facts about the host operations between the layers.

  DEGREES.  The kernel counts edges in 32-bit integers (ones scattered by word addition into zeros) and converts the
  count to a float; the reference scatters float ones by the accumulating float scatter.  On the extended reals both are
  the NUMBER of edges whose index lands on the node: fewer than 2³¹ edges, so the integer count does not wrap and reads
  signed as itself, and a sum of ones is its number of terms.

  THE TAKE'S MASK.  The kernel's row gather fills rows whose index is out of range; its mask is, per edge, the
  and-reduction over the one index component of 0 ≤ index ≤ N - 1.  Where every index is in range the mask is all ones
  and the select returns the gathered rows.
-/
import proofs.«404905_j37572373905750_3_alg».proof.Proof.LibScatterSum
import Idealize.ShloMosaic.PureOps.Ideal.Laws
import Idealize.ShloMosaic.Lib.IdealHost
import Idealize.ShloMosaic.Lib.ReduceAll
import Idealize.ShloMosaic.Lib.ValueIdx

noncomputable section

namespace Idealize.ShloMosaic

/-- The integer count of landing updates, converted, is the float sum of ones over them: both are the number of
    updates whose result index is `i`. -/
theorem sitofp_scatter_ones_eq_card {s si u : Shape} {w : Nat} (d : ScatterDims s si u) (idx : IVec si w)
    (hu : u.numel < 2 ^ 31) (i : s.Idx) :
    (sitofp (F := Ideal) .f32 (Host.scatter d IntOp.addi (fun _ => 0#32) idx (fun _ => 1#32)) : FVec Ideal s .f32) i
      = ((Finset.univ.filter fun j : u.Idx => d.resultIdx? j idx = some i).card : EReal) := by
  show (((Host.scatter d IntOp.addi (fun _ => 0#32) idx (fun _ => 1#32) i).toInt : ℝ) : EReal) = _
  rw [Host.scatter_addi_ones_toInt d idx i hu]
  simp

theorem scatterAdd_ones_eq_card {s si u : Shape} {w : Nat} (d : ScatterDims s si u) (idx : IVec si w) (i : s.Idx) :
    Host.scatterAdd (F := Ideal) (φ := .f32) d (fun _ => Ideal.ofBits .f32 0x00000000#32) idx
        (fun _ => Ideal.ofBits .f32 0x3F800000#32) i
      = ((Finset.univ.filter fun j : u.Idx => d.resultIdx? j idx = some i).card : EReal) := by
  simp only [Host.scatterAdd, Ideal.hostScatterAdd_def, Ideal.hostScatterAdd, Ideal.ofBits_zero_f32, Ideal.ofBits_one_f32,
    Finset.sum_const, zero_add, nsmul_one]

/-- A left fold by `and` from 1 over words that are all 1 is 1. -/
theorem IntOp.foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact IntOp.foldl_andi_ones f hf l

/-- An and-reduction from 1 of an array that is all ones is all ones. -/
theorem Host.reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact IntOp.foldl_andi_ones (fun n => x (s.rowMajor.symm n)) (fun n => hx _) _

/-- A select on a mask that is all ones is its first branch. -/
theorem select_ones {s : Shape} {α : Type} (c : IVec s 1) (hc : ∀ i, c i = 1#1) (a b : s.Idx → α) : select c a b = a := by
  funext i
  rw [ValueIdx.select_apply, hc i, ValueIdx.select_one]

end Idealize.ShloMosaic

end
-- ==== Proof.Bridge.lean ====
/-
  The kernel's term and the reference's term are one function, where every source index is a node.

  Both programs gather rows along the (once-wrapped) sources and sum them at the destinations with the same two host
  operations, so those stay closed boxes.  What differs: (1) the kernel's gather fills rows whose index is out of range,
  which never happens when 0 ≤ src < 100000 (the mask is all ones); (2) the kernel counts degrees in integers and
  converts, the reference sums float ones: both are the number of edges at the node; the kernel lays them out as
  columns by a reshape, the reference by a broadcast; (3) the reference raises max(1, degree) to the power -1/2 where
  the kernel takes the reciprocal square root of max(degree, 1): equal at a natural number (the reference-side layer
  lemmas); (4) the biases reach the kernel reshaped to a row.
-/
import proofs.«404905_j37572373905750_3_alg».proof.Proof.ChainDefs
import proofs.«404905_j37572373905750_3_alg».proof.Proof.RefLayers
import proofs.«404905_j37572373905750_3_alg».proof.Proof.HostFacts
import proofs.«404905_j37572373905750_3_alg».proof.Proof.Gen.ReferenceIdeal.Run
import Idealize.ShloMosaic.Lib.ValueLayout

set_option maxRecDepth 16384

noncomputable section

namespace Cert.Bridge

open Idealize.ShloMosaic Idealize.ShloMosaic.ValueIdx
open Cert.KernelIdeal Cert.KernelIdeal.Gen Cert.KernelIdeal.Chain

/-- Every source index, read signed, is at least 0 and below 100000. -/
def InRange (s : IVec S3200000 32) : Prop :=
  ∀ e, IntOp.cmpi .sge (s e) 0#32 = 1#1 ∧ IntOp.cmpi .slt (s e) 100000#32 = 1#1

/-! ## The take's mask -/

theorem ofBool_eq_one (b : Bool) : BitVec.ofBool b = 1#1 ↔ b = true := by cases b <;> decide

/-- A word in [0, 100000) is not negative and is at most 99999. -/
theorem word_facts (a : BitVec 32) (h0 : IntOp.cmpi .sge a 0#32 = 1#1) (h1 : IntOp.cmpi .slt a 100000#32 = 1#1) :
    IntOp.cmpi .slt a 0#32 = 0#1 ∧ IntOp.cmpi .sle a 99999#32 = 1#1 := by
  unfold IntOp.cmpi at h0 h1 ⊢
  rw [ofBool_eq_one] at h0 h1
  simp only [BitVec.slt, BitVec.sle, decide_eq_true_eq] at h0 h1
  have e0 : (0#32 : BitVec 32).toInt = 0 := by decide
  have e1 : (100000#32 : BitVec 32).toInt = 100000 := by decide
  have e2 : (99999#32 : BitVec 32).toInt = 99999 := by decide
  rw [e0] at h0
  rw [e1] at h1
  constructor
  · have : a.slt 0#32 = false := by simp only [BitVec.slt, e0, decide_eq_false_iff_not]; omega
    rw [this]; rfl
  · rw [ofBool_eq_one]; simp only [BitVec.sle, e2, decide_eq_true_eq]; omega

/-- A broadcast reads its operand at one index. -/
theorem bcast_at {α : Type} {s t : Shape} {dims : Fin s.rank → Fin t.rank} (h : s.BroadcastsInDim t dims) (j : t.Idx) :
    ∃ e : s.Idx, ∀ x : s.Idx → α, broadcastInDim t dims h x j = x e := ⟨_, fun _ => rfl⟩

/-- Where the sources are nodes the wrap changes nothing: each entry of the wrapped column is a source index. -/
theorem wrap_spec (s : IVec S3200000 32) (hs : InRange s) (i : S3200000x1.Idx) : ∃ e, wrap s i = s e := by
  obtain ⟨e, he⟩ := bcast_at (α := BitVec 32) bcast_S3200000_S3200000x1_0 i
  refine ⟨e, ?_⟩
  unfold wrap
  rw [he, select_apply]
  have hc : cmpi .slt s (broadcastInDim S3200000 ![] bcast_S_S3200000 (constantI S_ 32 0#32)) e = 0#1 :=
    (word_facts (s e) (hs e).1 (hs e).2).1
  rw [hc, select_zero]

/-- Where the sources are nodes every edge passes the range test. -/
theorem inRange_wrap (s : IVec S3200000 32) (hs : InRange s) (e' : S3200000.Idx) : inRange (wrap s) e' = 1#1 := by
  unfold inRange
  refine Host.reduce_andi_ones _ _ _ _ (fun i => ?_) (fun _ => rfl) e'
  obtain ⟨e, he⟩ := wrap_spec s hs i
  show IntOp.andi (IntOp.cmpi .sge (wrap s i) 0#32) (IntOp.cmpi .sle (wrap s i) 99999#32) = 1#1
  rw [he]
  exact IntOp.andi_eq_one.2 ⟨(hs e).1, (word_facts (s e) (hs e).1 (hs e).2).2⟩

theorem take8_eq (h : FVec Ideal S100000x8 .f32) (s : IVec S3200000 32) (hs : InRange s) :
    take8 h s = Host.gather gather_S100000x8_S3200000x1_S3200000x8_1_0_n_n_0_1_18 h (wrap s) := by
  unfold take8
  refine select_ones _ (fun i => ?_) _ _
  obtain ⟨e, he⟩ := bcast_at (α := BitVec 1) bcast_S3200000_S3200000x8_0 i
  rw [he]; exact inRange_wrap s hs e

theorem take1_eq (h : FVec Ideal S100000x1 .f32) (s : IVec S3200000 32) (hs : InRange s) :
    take1 h s = Host.gather gather_S100000x1_S3200000x1_S3200000x1_1_0_n_n_0_1_11 h (wrap s) := by
  unfold take1
  refine select_ones _ (fun i => ?_) _ _
  obtain ⟨e, he⟩ := bcast_at (α := BitVec 1) bcast_S3200000_S3200000x1_0 i
  rw [he]; exact inRange_wrap s hs e

/-! ## The degrees -/

/-- The reference's degree vector: float ones summed at the indices into zeros. -/
abbrev refDeg (idx : IVec S3200000 32) : FVec Ideal Cert.ReferenceIdeal.S100000 .f32 :=
  Host.scatterAdd Cert.ReferenceIdeal.scatter_S100000_S3200000x1_S3200000_n_0_0_1
    (broadcastInDim Cert.ReferenceIdeal.S100000 ![] Cert.ReferenceIdeal.Gen.bcast_S_S100000
      (constant (F := Ideal) Cert.ReferenceIdeal.S_ .f32 0x00000000#32))
    (broadcastInDim Cert.ReferenceIdeal.S3200000x1 ![0] Cert.ReferenceIdeal.Gen.bcast_S3200000_S3200000x1_0 idx)
    (broadcastInDim Cert.ReferenceIdeal.S3200000 ![] Cert.ReferenceIdeal.Gen.bcast_S_S3200000
      (constant (F := Ideal) Cert.ReferenceIdeal.S_ .f32 0x3F800000#32))

theorem numel_edges : (S3200000 : Shape).numel < 2 ^ 31 := by
  simp [Shape.numel]

/-- The reference's float sum of ones at a node is the number of edges whose index is the node. -/
theorem refDeg_eq_card (idx : IVec S3200000 32) (n : S100000.Idx) :
    refDeg idx n = ((Finset.univ.filter fun j : S3200000.Idx =>
      Cert.ReferenceIdeal.scatter_S100000_S3200000x1_S3200000_n_0_0_1.resultIdx? j
        (broadcastInDim S3200000x1 ![0] bcast_S3200000_S3200000x1_0 idx) = some n).card : EReal) := by
  have e0 : broadcastInDim Cert.ReferenceIdeal.S100000 ![] Cert.ReferenceIdeal.Gen.bcast_S_S100000
      (constant (F := Ideal) Cert.ReferenceIdeal.S_ .f32 0x00000000#32) = fun _ => Ideal.ofBits .f32 0x00000000#32 := rfl
  have e1 : broadcastInDim Cert.ReferenceIdeal.S3200000 ![] Cert.ReferenceIdeal.Gen.bcast_S_S3200000
      (constant (F := Ideal) Cert.ReferenceIdeal.S_ .f32 0x3F800000#32) = fun _ => Ideal.ofBits .f32 0x3F800000#32 := rfl
  show Host.scatterAdd _ _ _ _ n = _
  rw [e0, e1]
  exact scatterAdd_ones_eq_card _ _ n

/-- The kernel's converted integer count at a node is the same number. -/
theorem degVec_eq_card (idx : IVec S3200000 32) (n : S100000.Idx) :
    degVec idx n = ((Finset.univ.filter fun j : S3200000.Idx =>
      scatter_S100000_S3200000x1_S3200000_n_0_0_1.resultIdx? j
        (broadcastInDim S3200000x1 ![0] bcast_S3200000_S3200000x1_0 idx) = some n).card : EReal) := by
  have e0 : broadcastInDim S100000 ![] bcast_S_S100000 (constantI S_ 32 0#32) = fun _ => 0#32 := rfl
  have e1 : broadcastInDim S3200000 ![] bcast_S_S3200000 (constantI S_ 32 1#32) = fun _ => 1#32 := rfl
  unfold degVec
  rw [e0, e1]
  exact sitofp_scatter_ones_eq_card _ _ numel_edges n

/-- The kernel's converted integer count is the reference's float sum of ones. -/
theorem degVec_eq (idx : IVec S3200000 32) (n : S100000.Idx) : degVec idx n = refDeg idx n := by
  rw [degVec_eq_card, refDeg_eq_card]
  rfl

theorem isCount_refDeg (idx : IVec S3200000 32) : Cert.ReferenceIdeal.Layers.IsCount (refDeg idx) := fun n =>
  ⟨_, refDeg_eq_card idx n⟩

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The kernel's degree column is the reference's degree vector read along the rows. -/
theorem degCol_eq (idx : IVec S3200000 32) : degCol idx = fun i => refDeg idx (ix1 (i 0)) := by
  funext i
  obtain ⟨p, q, rfl⟩ : ∃ (p : Fin 100000) (q : Fin 1), i = ix2 p q := ⟨i 0, i 1, eq_ix2 i⟩
  unfold degCol
  rw [shapeCast_a_a1_apply]
  exact degVec_eq idx (ix1 p)

/-! ## The biases -/

theorem row8_eq (b : FVec Ideal S8 .f32) : shapeCast S1x8 b shapeCasts_S8_S1x8 = fun i => b (ix1 (i 1)) := by
  funext i
  obtain ⟨p, q, rfl⟩ : ∃ (p : Fin 1) (q : Fin 8), i = ix2 p q := ⟨i 0, i 1, eq_ix2 i⟩
  exact shapeCast_a_1a_apply b _ p q

theorem row1_eq (b : FVec Ideal S1 .f32) : shapeCast S1x1 b shapeCasts_S1_S1x1 = fun i => b (ix1 (i 1)) := by
  funext i
  obtain ⟨p, q, rfl⟩ : ∃ (p : Fin 1) (q : Fin 1), i = ix2 p q := ⟨i 0, i 1, eq_ix2 i⟩
  exact shapeCast_a_1a_apply b _ p q

/-! ## The two results -/

open Cert.ReferenceIdeal.Layers in
/-- The reference's composed result term is the kernel's `result` of the same arguments, where the sources are nodes. -/
theorem reference_result (m' : (ℓ : Loc Cert.ReferenceIdeal.nD Cert.ReferenceIdeal.τ Cert.ReferenceIdeal.sig) → Buf (Elt Ideal) ℓ)
    (c : Dev Cert.ReferenceIdeal.nD)
    (hs : InRange (m' ((c.tc : Thread Cert.ReferenceIdeal.nD Cert.ReferenceIdeal.τ).loc Cert.ReferenceIdeal.main_arg1))) :
    Cert.ReferenceIdeal.Value.res_main_v65 (F := Ideal) m' c
      = result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  unfold Cert.ReferenceIdeal.Value.res_main_v65
  rw [ref_layer1 _ _ _ (isCount_refDeg _), ref_layer2 _ _ _ (isCount_refDeg _) (isCount_refDeg _),
    ref_layer3 _ _ (isCount_refDeg _)]
  unfold result seg1 seg8
  rw [take1_eq _ _ hs, take8_eq _ _ hs, degCol_eq, degCol_eq, row8_eq, row1_eq]
  rfl

end Cert.Bridge

end
-- ==== Proof.PreSrc.lean ====
/-
  The precondition read back: every source index is a node.

  The printed precondition is a conjunction (a chain of `and`s of one-bit words) whose last two conjuncts are
  `all(src ≥ 0)` and `all(src < 100000)`: each an and-reduction over all edges of a signed comparison with a splat
  constant.  If the whole is 1, each conjunct is 1, and an and-reduction that is 1 had a 1 at every edge.
-/
import proofs.«404905_j37572373905750_3_alg».proof.Proof.Gen.Pre_finite_inputs
import Idealize.ShloMosaic.Lib.ReduceAll
import Idealize.ShloMosaic.Lib.ValueIdx

noncomputable section

namespace Cert.Pre_finite_inputs.Decode

open Idealize.ShloMosaic Cert.Pre_finite_inputs Cert.Pre_finite_inputs.Gen

/-- The rank-0 shape has one index. -/
instance : Subsingleton S_.Idx := ⟨fun _ _ => funext fun d => d.elim0⟩

/-- Where the precondition holds, each edge's source index is at least 0 and below 100000, as signed words. -/
theorem src_in_range {F : FTy → Type} [FloatOps F] (a0 : FVec F S100000x128 .f32) (src dst : IVec S3200000 32)
    (a3 : FVec F S128x8 .f32) (a4 : FVec F S8 .f32) (a5 : FVec F S8x1 .f32) (a6 : FVec F S1 .f32)
    (h : fn (F := F) a0 src dst a3 a4 a5 a6 = fun _ => 1#1) (e : S3200000.Idx) :
    IntOp.cmpi .sge (src e) 0#32 = 1#1 ∧ IntOp.cmpi .slt (src e) 100000#32 = 1#1 := by
  have h0 := congrFun h ValueIdx.ix0
  dsimp only [fn, fn_part1] at h0
  simp only [andi] at h0
  rw [IntOp.andi_eq_one] at h0
  obtain ⟨h1, hlt⟩ := h0
  rw [IntOp.andi_eq_one] at h1
  obtain ⟨-, hge⟩ := h1
  exact ⟨Host.reduce_andi_all _ _ _ _ _ hge e, Host.reduce_andi_all _ _ _ _ _ hlt e⟩

end Cert.Pre_finite_inputs.Decode

end
-- ==== Proof.lean ====
/-
  Two GraphConv layers (128 -> 8 -> 1 features over 100000 nodes and 3200000 edges), the kernel in three row-tiled
  launches with the edge gather and scatter-sum on the host between them, against the jnp reference.

  On the extended reals both programs compute, for every node n,
      out[n] = (Σ over edges e into n of h2[src e]) · nin[n] + b2,
      h2[n]  = Σ_k relu((Σ over edges e into n of h1[src e, k]) · nin[n] + b1[k]) · nout[n] · W2[k],
      h1[n,k] = Σ_j x[n, j] · nout[n] · W1[j, k],
  with nout[n], nin[n] = 1/sqrt(max(degree, 1)) of the out- and in-degree.  The kernel counts the degrees in integers
  and converts them, takes the reciprocal square root, and rounds the matrix products' operands to bf16 (the identity
  here); the reference sums float ones and raises max(1, degree) to the power -1/2: the same numbers, a degree being a
  natural number.  The kernel's row gather fills rows whose index is out of range where the reference's clamps, so the
  two agree where every source index is a node: the precondition's added conjuncts 0 ≤ src < 100000.  The gather and
  the scatter-sum themselves are the same host operations on both sides and stay unopened.

  The three frames: the kernel's two are the generated frame certificates; the reference's is its generated run with
  the result dropped.  `preserves` has nothing to state (the ideal pass rewrote nothing).
-/
import proofs.«404905_j37572373905750_3_alg».proof.Defs
import proofs.«404905_j37572373905750_3_alg».proof.Proof.Gen.Kernel
import proofs.«404905_j37572373905750_3_alg».proof.Proof.Gen.Kernel.Skeleton
import proofs.«404905_j37572373905750_3_alg».proof.Proof.Gen.Kernel.Launch
import proofs.«404905_j37572373905750_3_alg».proof.Proof.Gen.Kernel.Points
import proofs.«404905_j37572373905750_3_alg».proof.Proof.Gen.Kernel.Frame
import proofs.«404905_j37572373905750_3_alg».proof.Proof.Gen.KernelIdeal
import proofs.«404905_j37572373905750_3_alg».proof.Proof.Gen.KernelIdeal.Skeleton
import proofs.«404905_j37572373905750_3_alg».proof.Proof.Gen.KernelIdeal.Launch
import proofs.«404905_j37572373905750_3_alg».proof.Proof.Gen.KernelIdeal.Points
import proofs.«404905_j37572373905750_3_alg».proof.Proof.Gen.KernelIdeal.Frame
import proofs.«404905_j37572373905750_3_alg».proof.Proof.Gen.ReferenceIdeal
import proofs.«404905_j37572373905750_3_alg».proof.Proof.Gen.ReferenceIdeal.Run
import proofs.«404905_j37572373905750_3_alg».proof.Proof.Gen.Pre_finite_inputs
import proofs.«404905_j37572373905750_3_alg».proof.Proof.KernelRun
import proofs.«404905_j37572373905750_3_alg».proof.Proof.KernelChain
import proofs.«404905_j37572373905750_3_alg».proof.Proof.Bridge
import proofs.«404905_j37572373905750_3_alg».proof.Proof.PreSrc
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `Chain.result` of their arguments: the kernel by its run read through the segment boundaries,
    the reference by its run's term rewritten layer by layer; the arguments agree. -/
theorem algebraic : Cert.algebraic_KernelIdeal_ReferenceIdeal := by
  intro m ρ m' ρ' hpre hagree
  have hs : ∀ c : Dev Cert.KernelIdeal.nD,
      Cert.Bridge.InRange (m ((c.tc : Thread Cert.KernelIdeal.nD Cert.KernelIdeal.τ).loc Cert.KernelIdeal.main_arg1)) :=
    fun c e => Cert.Pre_finite_inputs.Decode.src_in_range _ _ _ _ _ _ _ (hpre c) e
  refine ⟨fun c => Cert.KernelIdeal.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.W8_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.Bridge.reference_result m' c (by rw [a1]; exact hs c), a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
